-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x20 : Shape := ⟨2, ![256, 20]⟩
abbrev S256x512x768 : Shape := ⟨3, ![256, 512, 768]⟩
abbrev S2001x128 : Shape := ⟨2, ![2001, 128]⟩
abbrev S128x768 : Shape := ⟨2, ![128, 768]⟩
abbrev S_ : Shape := ⟨0, ![]⟩

class Facts : Prop where
  bcast_S_S256x512x768 : S_.BroadcastsInDim S256x512x768 (![] : Fin 0 → Fin S256x512x768.rank)
  reducesTo_S256x512x768_S_d0_1_2 : S256x512x768.ReducesTo [0, 1, 2] S_
  h_S_ : 0 < S_.numel
  bcast_S_S2001x128 : S_.BroadcastsInDim S2001x128 (![] : Fin 0 → Fin S2001x128.rank)
  reducesTo_S2001x128_S_d0_1 : S2001x128.ReducesTo [0, 1] S_
  bcast_S_S128x768 : S_.BroadcastsInDim S128x768 (![] : Fin 0 → Fin S128x768.rank)
  reducesTo_S128x768_S_d0_1 : S128x768.ReducesTo [0, 1] S_
  bcast_S_S256x20 : S_.BroadcastsInDim S256x20 (![] : Fin 0 → Fin S256x20.rank)
  reducesTo_S256x20_S_d0_1 : S256x20.ReducesTo [0, 1] S_

variable [Facts]

def fn_part1 {F : FTy → Type} [FloatOps F] (main_arg0 : IVec S256x20 32) (main_v13 : IVec S_ 1) (main_v15 : IVec S256x20 1) (main_c_5 : IVec S_ 32) : IVec S_ 1 :=
  let main_v16 : IVec S256x20 32 := broadcastInDim S256x20 ![] bcast_S_S256x20 main_c_5
  let main_v17 : IVec S256x20 1 := cmpi .slt main_arg0 main_v16
  let main_v18 : IVec S256x20 1 := andi main_v15 main_v17
  let main_c_6 : IVec S_ 1 := constantI S_ 1 1#1
  let main_v19 : IVec S_ 1 := (fun x v => Host.reduce IntOp.andi x v reducesTo_S256x20_S_d0_1 h_S_) main_v18 main_c_6
  let main_v20 : IVec S_ 1 := andi main_v13 main_v19
  main_v20

def fn {F : FTy → Type} [FloatOps F] (main_arg0 : IVec S256x20 32) (main_arg1 : FVec F S256x512x768 .f32) (main_arg2 : FVec F S2001x128 .f32) (main_arg3 : FVec F S128x768 .f32) : IVec S_ 1 :=
  let main_v0 : FVec F S256x512x768 .f32 := Host.absf main_arg1
  let main_cst : FVec F S_ .f32 := constant S_ .f32 0x7F800000#32
  let main_v1 : FVec F S256x512x768 .f32 := broadcastInDim S256x512x768 ![] bcast_S_S256x512x768 main_cst
  let main_v2 : IVec S256x512x768 1 := cmpf .olt main_v0 main_v1
  let main_c : IVec S_ 1 := constantI S_ 1 1#1
  let main_v3 : IVec S_ 1 := (fun x v => Host.reduce IntOp.andi x v reducesTo_S256x512x768_S_d0_1_2 h_S_) main_v2 main_c
  let main_v4 : FVec F S2001x128 .f32 := Host.absf main_arg2
  let main_cst_0 : FVec F S_ .f32 := constant S_ .f32 0x7F800000#32
  let main_v5 : FVec F S2001x128 .f32 := broadcastInDim S2001x128 ![] bcast_S_S2001x128 main_cst_0
  let main_v6 : IVec S2001x128 1 := cmpf .olt main_v4 main_v5
  let main_c_1 : IVec S_ 1 := constantI S_ 1 1#1
  let main_v7 : IVec S_ 1 := (fun x v => Host.reduce IntOp.andi x v reducesTo_S2001x128_S_d0_1 h_S_) main_v6 main_c_1
  let main_v8 : IVec S_ 1 := andi main_v3 main_v7
  let main_v9 : FVec F S128x768 .f32 := Host.absf main_arg3
  let main_cst_2 : FVec F S_ .f32 := constant S_ .f32 0x7F800000#32
  let main_v10 : FVec F S128x768 .f32 := broadcastInDim S128x768 ![] bcast_S_S128x768 main_cst_2
  let main_v11 : IVec S128x768 1 := cmpf .olt main_v9 main_v10
  let main_c_3 : IVec S_ 1 := constantI S_ 1 1#1
  let main_v12 : IVec S_ 1 := (fun x v => Host.reduce IntOp.andi x v reducesTo_S128x768_S_d0_1 h_S_) main_v11 main_c_3
  let main_v13 : IVec S_ 1 := andi main_v8 main_v12
  let main_c_4 : IVec S_ 32 := constantI S_ 32 4294965295#32
  let main_v14 : IVec S256x20 32 := broadcastInDim S256x20 ![] bcast_S_S256x20 main_c_4
  let main_v15 : IVec S256x20 1 := cmpi .sge main_arg0 main_v14
  let main_c_5 : IVec S_ 32 := constantI S_ 32 2001#32
  fn_part1 (F := F) main_arg0 main_v13 main_v15 main_c_5
-- ==== Kernel.lean ====
abbrev S256x20 : Shape := ⟨2, ![256, 20]⟩
abbrev S256x512x768 : Shape := ⟨3, ![256, 512, 768]⟩
abbrev S2001x128 : Shape := ⟨2, ![2001, 128]⟩
abbrev S128x768 : Shape := ⟨2, ![128, 768]⟩
abbrev S_ : Shape := ⟨0, ![]⟩
abbrev S256x20x1 : Shape := ⟨3, ![256, 20, 1]⟩
abbrev S1 : Shape := ⟨1, ![1]⟩
abbrev S1x1x1 : Shape := ⟨3, ![1, 1, 1]⟩
abbrev S256x20x128 : Shape := ⟨3, ![256, 20, 128]⟩
abbrev S256x20x896 : Shape := ⟨3, ![256, 20, 896]⟩
abbrev S8x20x128 : Shape := ⟨3, ![8, 20, 128]⟩
abbrev S8x512x768 : Shape := ⟨3, ![8, 512, 768]⟩
abbrev S8x20x896 : Shape := ⟨3, ![8, 20, 896]⟩
abbrev S8x20x1 : Shape := ⟨3, ![8, 20, 1]⟩
abbrev S8x20x768 : Shape := ⟨3, ![8, 20, 768]⟩
abbrev S160x128 : Shape := ⟨2, ![160, 128]⟩
abbrev S160x768 : Shape := ⟨2, ![160, 768]⟩
abbrev S8x128x768 : Shape := ⟨3, ![8, 128, 768]⟩
abbrev S8x20 : Shape := ⟨2, ![8, 20]⟩
abbrev S256x17920 : Shape := ⟨2, ![256, 17920]⟩

abbrev nBuf : Space → Nat
  | .hbm => 29
  | .vmem => 10
  | .smem => 0
  | _ => 0

abbrev bufTy : (tb : Table) → Fin (tcTables nBuf tb) → BufTy
  | .hbm, ⟨0, _⟩ => ⟨S256x20, .i32⟩
  | .hbm, ⟨1, _⟩ => ⟨S256x512x768, .f32⟩
  | .hbm, ⟨2, _⟩ => ⟨S2001x128, .f32⟩
  | .hbm, ⟨3, _⟩ => ⟨S128x768, .f32⟩
  | .hbm, ⟨4, _⟩ => ⟨S_, .i32⟩
  | .hbm, ⟨5, _⟩ => ⟨S256x20, .i32⟩
  | .hbm, ⟨6, _⟩ => ⟨S256x20, .i1⟩
  | .hbm, ⟨7, _⟩ => ⟨S_, .i32⟩
  | .hbm, ⟨8, _⟩ => ⟨S256x20, .i32⟩
  | .hbm, ⟨9, _⟩ => ⟨S256x20, .i32⟩
  | .hbm, ⟨10, _⟩ => ⟨S256x20, .i32⟩
  | .hbm, ⟨11, _⟩ => ⟨S256x20x1, .i32⟩
  | .hbm, ⟨12, _⟩ => ⟨S1, .i32⟩
  | .hbm, ⟨13, _⟩ => ⟨S_, .i32⟩
  | .hbm, ⟨14, _⟩ => ⟨S256x20x1, .i32⟩
  | .hbm, ⟨15, _⟩ => ⟨S256x20x1, .i1⟩
  | .hbm, ⟨16, _⟩ => ⟨S1x1x1, .i32⟩
  | .hbm, ⟨17, _⟩ => ⟨S256x20x1, .i32⟩
  | .hbm, ⟨18, _⟩ => ⟨S256x20x1, .i1⟩
  | .hbm, ⟨19, _⟩ => ⟨S256x20x1, .i1⟩
  | .hbm, ⟨20, _⟩ => ⟨S_, .i1⟩
  | .hbm, ⟨21, _⟩ => ⟨S256x20, .i1⟩
  | .hbm, ⟨22, _⟩ => ⟨S256x20x128, .f32⟩
  | .hbm, ⟨23, _⟩ => ⟨S256x20x128, .i1⟩
  | .hbm, ⟨24, _⟩ => ⟨S_, .f32⟩
  | .hbm, ⟨25, _⟩ => ⟨S256x20x128, .f32⟩
  | .hbm, ⟨26, _⟩ => ⟨S256x20x128, .f32⟩
  | .hbm, ⟨27, _⟩ => ⟨S256x20x896, .f32⟩
  | .hbm, ⟨28, _⟩ => ⟨S256x17920, .f32⟩
  | .local _ .vmem, ⟨0, _⟩ => ⟨S8x20x128, .f32⟩
  | .local _ .vmem, ⟨1, _⟩ => ⟨S8x20x128, .f32⟩
  | .local _ .vmem, ⟨2, _⟩ => ⟨S8x512x768, .f32⟩
  | .local _ .vmem, ⟨3, _⟩ => ⟨S8x512x768, .f32⟩
  | .local _ .vmem, ⟨4, _⟩ => ⟨S128x768, .f32⟩
  | .local _ .vmem, ⟨5, _⟩ => ⟨S8x20x896, .f32⟩
  | .local _ .vmem, ⟨6, _⟩ => ⟨S8x20x896, .f32⟩
  | .local _ .vmem, ⟨7, _⟩ => ⟨S8x20x1, .f32⟩
  | .local _ .vmem, ⟨8, _⟩ => ⟨S8x20x1, .f32⟩
  | .local _ .vmem, ⟨9, _⟩ => ⟨S8x20x768, .f32⟩
  | _, _ => ⟨S256x20, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  c0_i32
def k0_mult2 : BitVec 32 :=
  let c128_i32 : BitVec 32 := 128#32
  c128_i32
def k0_mult3 : BitVec 32 :=
  let c256_i32 : BitVec 32 := 256#32
  c256_i32
def k0_mult4 : BitVec 32 :=
  let c384_i32 : BitVec 32 := 384#32
  c384_i32
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x20x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x20x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S256x20 : S_.BroadcastsInDim S256x20 (![] : Fin 0 → Fin S256x20.rank)
  bcast_S256x20_S256x20x1_0_1 : S256x20.BroadcastsInDim S256x20x1 (![0, 1] : Fin 2 → Fin S256x20x1.rank)
  bcast_S_S256x20x1 : S_.BroadcastsInDim S256x20x1 (![] : Fin 0 → Fin S256x20x1.rank)
  bcast_S1_S1x1x1_2 : S1.BroadcastsInDim S1x1x1 (![2] : Fin 1 → Fin S1x1x1.rank)
  bcast_S1x1x1_S256x20x1_0_1_2 : S1x1x1.BroadcastsInDim S256x20x1 (![0, 1, 2] : Fin 3 → Fin S256x20x1.rank)
  reducesTo_S256x20x1_S256x20_d2 : S256x20x1.ReducesTo [2] S256x20
  h_S_ : 0 < S_.numel
  bcast_S256x20_S256x20x128_0_1 : S256x20.BroadcastsInDim S256x20x128 (![0, 1] : Fin 2 → Fin S256x20x128.rank)
  bcast_S_S256x20x128 : S_.BroadcastsInDim S256x20x128 (![] : Fin 0 → Fin S256x20x128.rank)
  inb_S8x20x128_S8x20x128_0_0_0 : ∀ a, (![0, 0, 0] : Fin 3 → Nat) a + S8x20x128.size a ≤ S8x20x128.size a
  h_S8x20x128 : 0 < S8x20x128.numel
  shapeCasts_S8x20x128_S8x20x128 : S8x20x128.ShapeCasts S8x20x128
  bitsLt_bf16_f32 : FTy.bits .bf16 < FTy.bits .f32
  inb_S128x768_S128x768_0_0 : ∀ a, (![0, 0] : Fin 2 → Nat) a + S128x768.size a ≤ S128x768.size a
  h_S128x768 : 0 < S128x768.numel
  shapeCasts_S8x20x128_S160x128 : S8x20x128.ShapeCasts S160x128
  shapeCasts_S160x768_S8x20x768 : S160x768.ShapeCasts S8x20x768
  inb_S8x20x1_S8x20x1_0_0_0 : ∀ a, (![0, 0, 0] : Fin 3 → Nat) a + S8x20x1.size a ≤ S8x20x1.size a
  h_S8x20x1 : 0 < S8x20x1.numel
  shapeCasts_S8x20x1_S8x20x1 : S8x20x1.ShapeCasts S8x20x1
  inb_S8x20x768_S8x20x768_0_0_0 : ∀ a, (![0, 0, 0] : Fin 3 → Nat) a + S8x20x768.size a ≤ S8x20x768.size a
  h_S8x20x768 : 0 < S8x20x768.numel
  shapeCasts_S8x20x768_S8x20x768 : S8x20x768.ShapeCasts S8x20x768
  inb_S8x512x768_S8x128x768_0_0_0 : ∀ a, (![0, 0, 0] : Fin 3 → Nat) a + S8x128x768.size a ≤ S8x512x768.size a
  h_S8x128x768 : 0 < S8x128x768.numel
  reduces_S8x20x128_S8x20 : S8x20x128.Reduces [2] S8x20
  shapeCasts_S8x20_S8x20x1 : S8x20.ShapeCasts S8x20x1
  broadcasts_S8x20x1_S8x20x128 : S8x20x1.Broadcasts S8x20x128
  broadcasts_S8x20x1_S8x20x768 : S8x20x1.Broadcasts S8x20x768
  inb_S8x512x768_S8x128x768_0_128_0 : ∀ a, (![0, 128, 0] : Fin 3 → Nat) a + S8x128x768.size a ≤ S8x512x768.size a
  inb_S8x512x768_S8x128x768_0_256_0 : ∀ a, (![0, 256, 0] : Fin 3 → Nat) a + S8x128x768.size a ≤ S8x512x768.size a
  inb_S8x512x768_S8x128x768_0_384_0 : ∀ a, (![0, 384, 0] : Fin 3 → Nat) a + S8x128x768.size a ≤ S8x512x768.size a
  concatenates_S8x20x128_S8x20x768_S8x20x896_d2 : Shape.Concatenates [S8x20x128, S8x20x768] S8x20x896 2
  inb_S8x20x896_S8x20x896_0_0_0 : ∀ a, (![0, 0, 0] : Fin 3 → Nat) a + S8x20x896.size a ≤ S8x20x896.size a
  h_S8x20x896 : 0 < S8x20x896.numel
  shapeCasts_S256x20x896_S256x17920 : S256x20x896.ShapeCasts S256x17920
  gather_S2001x128_S256x20x1_S256x20x128_2_0_n_n_0_2_1128_wf : GatherDims.WF S2001x128 S256x20x1 S256x20x128 [2] [0] [] [0] [] 2 ![1, 128]
  dot_S160x128_S128x768_S160x768_1_0_0_1_n_n_wf : DotDims.WF S160x128 S128x768 S160x768 [1] [0] [0] [1] [] []
  dot_S8x20x768_S8x128x768_S8x20x128_2_2_1_1_0_0_wf : DotDims.WF S8x20x768 S8x128x768 S8x20x128 [2] [2] [1] [1] [0] [0]
  dot_S8x20x128_S8x128x768_S8x20x768_2_1_1_2_0_0_wf : DotDims.WF S8x20x128 S8x128x768 S8x20x768 [2] [1] [1] [2] [0] [0]
  hrank0 : 0 < grid0.rank
  k0_mult1_dvd : 128 ∣ k0_mult1.toNat
  k0_mult2_dvd : 128 ∣ k0_mult2.toNat
  k0_mult3_dvd : 128 ∣ k0_mult3.toNat
  k0_mult4_dvd : 128 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x20x128.size a ≤ S256x20x128.size a
  hwx0_0 : ∀ i : grid0.Coords, EltTy.bits .f32 = 32 ∨ (Rect.block (s := S256x20x128) S8x20x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x768.size a ≤ S256x512x768.size a
  hwx0_1 : ∀ i : grid0.Coords, EltTy.bits .f32 = 32 ∨ (Rect.block (s := S256x512x768) S8x512x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x768.size a ≤ S128x768.size a
  hwx0_2 : ∀ i : grid0.Coords, EltTy.bits .f32 = 32 ∨ (Rect.block (s := S128x768) S128x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x20x896.size a ≤ S256x20x896.size a
  hwx0_3 : ∀ i : grid0.Coords, EltTy.bits .f32 = 32 ∨ (Rect.block (s := S256x20x896) S8x20x896.size (cc0_transform_3 i) (hinb0_3 i)).WholeWords (EltTy.packing .f32)

variable [Facts₀]

def gather_S2001x128_S256x20x1_S256x20x128_2_0_n_n_0_2_1128 : GatherDims S2001x128 S256x20x1 S256x20x128 where
  offsetDims := [2]
  collapsedSliceDims := [0]
  operandBatchingDims := []
  startIndicesBatchingDims := []
  startIndexMap := [0]
  indexVectorDim := 2
  sliceSizes := ![1, 128]
  wf := gather_S2001x128_S256x20x1_S256x20x128_2_0_n_n_0_2_1128_wf
def dot_S160x128_S128x768_S160x768_1_0_0_1_n_n : DotDims S160x128 S128x768 S160x768 where
  lhsContracting := [1]
  rhsContracting := [0]
  lhsNonContracting := [0]
  rhsNonContracting := [1]
  lhsBatch := []
  rhsBatch := []
  wf := dot_S160x128_S128x768_S160x768_1_0_0_1_n_n_wf
def dot_S8x20x768_S8x128x768_S8x20x128_2_2_1_1_0_0 : DotDims S8x20x768 S8x128x768 S8x20x128 where
  lhsContracting := [2]
  rhsContracting := [2]
  lhsNonContracting := [1]
  rhsNonContracting := [1]
  lhsBatch := [0]
  rhsBatch := [0]
  wf := dot_S8x20x768_S8x128x768_S8x20x128_2_2_1_1_0_0_wf
def dot_S8x20x128_S8x128x768_S8x20x768_2_1_1_2_0_0 : DotDims S8x20x128 S8x128x768 S8x20x768 where
  lhsContracting := [2]
  rhsContracting := [1]
  lhsNonContracting := [1]
  rhsNonContracting := [2]
  lhsBatch := [0]
  rhsBatch := [0]
  wf := dot_S8x20x128_S8x128x768_S8x20x768_2_1_1_2_0_0_wf

abbrev win0_0 : Pipeline.Window sig grid0 :=
  Pipeline.Window.ofSpec (Memref.whole main_v0) S8x20x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x20x896.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x20 : Shape := ⟨2, ![256, 20]⟩
abbrev S256x512x768 : Shape := ⟨3, ![256, 512, 768]⟩
abbrev S2001x128 : Shape := ⟨2, ![2001, 128]⟩
abbrev S128x768 : Shape := ⟨2, ![128, 768]⟩
abbrev S_ : Shape := ⟨0, ![]⟩
abbrev S256x20x1 : Shape := ⟨3, ![256, 20, 1]⟩
abbrev S256x20x128 : Shape := ⟨3, ![256, 20, 128]⟩
abbrev S256x20x768 : Shape := ⟨3, ![256, 20, 768]⟩
abbrev S256x20x512 : Shape := ⟨3, ![256, 20, 512]⟩
abbrev S256x20x896 : Shape := ⟨3, ![256, 20, 896]⟩
abbrev S256x17920 : Shape := ⟨2, ![256, 17920]⟩

abbrev nBuf : Space → Nat
  | .hbm => 32
  | .vmem => 0
  | .smem => 0
  | _ => 0

abbrev bufTy : (tb : Table) → Fin (tcTables nBuf tb) → BufTy
  | .hbm, ⟨0, _⟩ => ⟨S256x20, .i32⟩
  | .hbm, ⟨1, _⟩ => ⟨S256x512x768, .f32⟩
  | .hbm, ⟨2, _⟩ => ⟨S2001x128, .f32⟩
  | .hbm, ⟨3, _⟩ => ⟨S128x768, .f32⟩
  | .hbm, ⟨4, _⟩ => ⟨S_, .i32⟩
  | .hbm, ⟨5, _⟩ => ⟨S256x20, .i32⟩
  | .hbm, ⟨6, _⟩ => ⟨S256x20, .i1⟩
  | .hbm, ⟨7, _⟩ => ⟨S_, .i32⟩
  | .hbm, ⟨8, _⟩ => ⟨S256x20, .i32⟩
  | .hbm, ⟨9, _⟩ => ⟨S256x20, .i32⟩
  | .hbm, ⟨10, _⟩ => ⟨S256x20, .i32⟩
  | .hbm, ⟨11, _⟩ => ⟨S256x20x1, .i32⟩
  | .hbm, ⟨12, _⟩ => ⟨S256x20x128, .f32⟩
  | .hbm, ⟨13, _⟩ => ⟨S256x20x768, .f32⟩
  | .hbm, ⟨14, _⟩ => ⟨S256x20x512, .f32⟩
  | .hbm, ⟨15, _⟩ => ⟨S_, .f32⟩
  | .hbm, ⟨16, _⟩ => ⟨S256x20, .f32⟩
  | .hbm, ⟨17, _⟩ => ⟨S_, .f32⟩
  | .hbm, ⟨18, _⟩ => ⟨S256x20, .f32⟩
  | .hbm, ⟨19, _⟩ => ⟨S256x20, .f32⟩
  | .hbm, ⟨20, _⟩ => ⟨S256x20x1, .f32⟩
  | .hbm, ⟨21, _⟩ => ⟨S256x20x512, .f32⟩
  | .hbm, ⟨22, _⟩ => ⟨S256x20x512, .f32⟩
  | .hbm, ⟨23, _⟩ => ⟨S256x20x512, .f32⟩
  | .hbm, ⟨24, _⟩ => ⟨S_, .f32⟩
  | .hbm, ⟨25, _⟩ => ⟨S256x20, .f32⟩
  | .hbm, ⟨26, _⟩ => ⟨S256x20x1, .f32⟩
  | .hbm, ⟨27, _⟩ => ⟨S256x20x512, .f32⟩
  | .hbm, ⟨28, _⟩ => ⟨S256x20x512, .f32⟩
  | .hbm, ⟨29, _⟩ => ⟨S256x20x768, .f32⟩
  | .hbm, ⟨30, _⟩ => ⟨S256x20x896, .f32⟩
  | .hbm, ⟨31, _⟩ => ⟨S256x17920, .f32⟩
  | _, _ => ⟨S256x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S_S256x20 : S_.BroadcastsInDim S256x20 (![] : Fin 0 → Fin S256x20.rank)
  bcast_S256x20_S256x20x1_0_1 : S256x20.BroadcastsInDim S256x20x1 (![0, 1] : Fin 2 → Fin S256x20x1.rank)
  reducesTo_S256x20x512_S256x20_d2 : S256x20x512.ReducesTo [2] S256x20
  h_S_ : 0 < S_.numel
  bcast_S256x20x1_S256x20x512_0_1_2 : S256x20x1.BroadcastsInDim S256x20x512 (![0, 1, 2] : Fin 3 → Fin S256x20x512.rank)
  concatenates_S256x20x128_S256x20x768_S256x20x896_d2 : Shape.Concatenates [S256x20x128, S256x20x768] S256x20x896 2
  shapeCasts_S256x20x896_S256x17920 : S256x20x896.ShapeCasts S256x17920
  gather_S2001x128_S256x20x1_S256x20x128_2_0_n_n_0_2_1128_wf : GatherDims.WF S2001x128 S256x20x1 S256x20x128 [2] [0] [] [0] [] 2 ![1, 128]
  dot_S256x20x128_S128x768_S256x20x768_2_0_01_1_n_n_wf : DotDims.WF S256x20x128 S128x768 S256x20x768 [2] [0] [0, 1] [1] [] []
  dot_S256x20x768_S256x512x768_S256x20x512_2_2_1_1_0_0_wf : DotDims.WF S256x20x768 S256x512x768 S256x20x512 [2] [2] [1] [1] [0] [0]
  dot_S256x20x512_S256x512x768_S256x20x768_2_1_1_2_0_0_wf : DotDims.WF S256x20x512 S256x512x768 S256x20x768 [2] [1] [1] [2] [0] [0]

variable [Facts₀]

def gather_S2001x128_S256x20x1_S256x20x128_2_0_n_n_0_2_1128 : GatherDims S2001x128 S256x20x1 S256x20x128 where
  offsetDims := [2]
  collapsedSliceDims := [0]
  operandBatchingDims := []
  startIndicesBatchingDims := []
  startIndexMap := [0]
  indexVectorDim := 2
  sliceSizes := ![1, 128]
  wf := gather_S2001x128_S256x20x1_S256x20x128_2_0_n_n_0_2_1128_wf
def dot_S256x20x128_S128x768_S256x20x768_2_0_01_1_n_n : DotDims S256x20x128 S128x768 S256x20x768 where
  lhsContracting := [2]
  rhsContracting := [0]
  lhsNonContracting := [0, 1]
  rhsNonContracting := [1]
  lhsBatch := []
  rhsBatch := []
  wf := dot_S256x20x128_S128x768_S256x20x768_2_0_01_1_n_n_wf
def dot_S256x20x768_S256x512x768_S256x20x512_2_2_1_1_0_0 : DotDims S256x20x768 S256x512x768 S256x20x512 where
  lhsContracting := [2]
  rhsContracting := [2]
  lhsNonContracting := [1]
  rhsNonContracting := [1]
  lhsBatch := [0]
  rhsBatch := [0]
  wf := dot_S256x20x768_S256x512x768_S256x20x512_2_2_1_1_0_0_wf
def dot_S256x20x512_S256x512x768_S256x20x768_2_1_1_2_0_0 : DotDims S256x20x512 S256x512x768 S256x20x768 where
  lhsContracting := [2]
  rhsContracting := [1]
  lhsNonContracting := [1]
  rhsNonContracting := [2]
  lhsBatch := [0]
  rhsBatch := [0]
  wf := dot_S256x20x512_S256x512x768_S256x20x768_2_1_1_2_0_0_wf

class Facts : Prop extends Facts₀ where

variable [Facts]
-- ==== Proof.PreFacts.lean ====
/-
  What the precondition says, element by element: every entry of the three float inputs is a real number
  (its absolute value lies strictly below +∞), and every index word lies in the signed range [-2001, 2001).
-/
import proofs.«425159_j37976100831406_2_alg».proof.Pre_finite_inputs
import Idealize.ShloMosaic.Lib.ReduceAll
import Idealize.ShloMosaic.Lib.ValueIdx
import Idealize.ShloMosaic.PureOps.Ideal

namespace Cert.Attn

open Idealize.ShloMosaic Cert.Pre_finite_inputs

variable [Cert.Pre_finite_inputs.Facts]

/-- The rank-0 shape has one index. -/
instance subsingleton_scalar_idx : Subsingleton S_.Idx := ⟨fun a b => funext fun d => d.elim0⟩

/-- The f32 pattern with an all-ones exponent and a zero significand is +∞. -/
theorem ofBits_inf_f32 : Ideal.ofBits .f32 0x7F800000#32 = (⊤ : EReal) := by
  simp [Ideal.ofBits, Ideal.ieee]

/-- An extended real whose absolute value max x (-x) lies strictly below +∞ is a real: at x = ⊤ the maximum is ⊤,
    and at x = ⊥ it is -⊥ = ⊤. -/
theorem real_of_abs_lt_inf (x : EReal)
    (h : Ideal.cmp .olt (max x (-x)) (Ideal.ofBits .f32 0x7F800000#32) = 1#1) : ∃ r : ℝ, x = (r : EReal) := by
  rw [ofBits_inf_f32] at h
  have hlt : max x (-x) < ⊤ := by
    by_contra hn
    simp [Ideal.cmp, hn] at h
  induction x using EReal.rec with
  | bot => simp at hlt
  | coe r => exact ⟨r, rfl⟩
  | top => simp at hlt

theorem pre_facts (a0 : IVec S256x20 32) (a1 : FVec Ideal S256x512x768 .f32) (a2 : FVec Ideal S2001x128 .f32)
    (a3 : FVec Ideal S128x768 .f32)
    (h : Cert.Pre_finite_inputs.fn (F := Ideal) a0 a1 a2 a3 = fun _ => 1#1) :
    (∀ i, ∃ r : ℝ, a1 i = (r : EReal)) ∧ (∀ i, ∃ r : ℝ, a2 i = (r : EReal)) ∧ (∀ i, ∃ r : ℝ, a3 i = (r : EReal))
      ∧ (∀ i : S256x20.Idx, IntOp.cmpi .sge (a0 i) 4294965295#32 = 1#1 ∧ IntOp.cmpi .slt (a0 i) 2001#32 = 1#1) := by
  have h0 := congrFun h ValueIdx.ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_, fun i => ?_⟩
  · exact real_of_abs_lt_inf _ (Host.reduce_andi_all _ _ _ _ _ h1 i)
  · exact real_of_abs_lt_inf _ (Host.reduce_andi_all _ _ _ _ _ h2 i)
  · exact real_of_abs_lt_inf _ (Host.reduce_andi_all _ _ _ _ _ h3 i)
  · exact IntOp.andi_eq_one.1 (Host.reduce_andi_all _ _ _ _ _ h4 i)

end Cert.Attn
-- ==== Proof.KerPiece.lean ====
/-
  What one grid point of the attention kernel writes to its output block, as ONE function of the point's three
  input blocks (the embedding rows `x0`, the description rows `x1`, the projection `x2`).

  The body keeps three scratch arrays — a running row maximum `m`, a running denominator `l`, a running numerator
  `acc` —, resets them, walks the 512 description rows in four chunks of 128, and at each chunk replaces
  (m, l, acc) by one and the same step of the chunk's rows; it ends by storing the embedding rows followed by
  `acc / l`.  Every scratch load reads back the store just before it, so the output block is four nested
  applications of the step to the reset values.
-/
import proofs.«425159_j37976100831406_2_alg».proof.Proof.Gen.KernelIdeal.Frame
import Idealize.ShloMosaic.Lib.Pipeline.Value

set_option maxRecDepth 16384

noncomputable section

namespace Cert.Attn.Ker

open Idealize.ShloMosaic Idealize.ShloMosaic.TcCoe Idealize.ShloMosaic.Tactic
open Idealize.SL Idealize.SL.Sem
open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A load of a whole array after a list of stores whose LAST one wrote the whole array reads that store's value,
    whatever was stored before. -/
theorem readCov_cons_unit_zero {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-! ## The step, and the block -/

/-- The four chunks of 128 description rows of a block. -/
def dsub0 (x1 : Vec F S8x512x768 .f32) : Vec F S8x128x768 .f32 :=
  View.ld x1 (Rect.unit (s := S8x512x768) ![0, 0, 0] S8x128x768.size inb_S8x512x768_S8x128x768_0_0_0)
def dsub1 (x1 : Vec F S8x512x768 .f32) : Vec F S8x128x768 .f32 :=
  View.ld x1 (Rect.unit (s := S8x512x768) ![0, 128, 0] S8x128x768.size inb_S8x512x768_S8x128x768_0_128_0)
def dsub2 (x1 : Vec F S8x512x768 .f32) : Vec F S8x128x768 .f32 :=
  View.ld x1 (Rect.unit (s := S8x512x768) ![0, 256, 0] S8x128x768.size inb_S8x512x768_S8x128x768_0_256_0)
def dsub3 (x1 : Vec F S8x512x768 .f32) : Vec F S8x128x768 .f32 :=
  View.ld x1 (Rect.unit (s := S8x512x768) ![0, 384, 0] S8x128x768.size inb_S8x512x768_S8x128x768_0_384_0)

/-- One chunk's new running maximum: the old one joined with the row maxima of the chunk's scores. -/
def stM (qv : FVec F S8x20x768 .f32) (d : Vec F S8x128x768 .f32) (m : Vec F S8x20x1 .f32) : FVec F S8x20x1 .f32 :=
  k0_pay20 (k0_pay15 qv d m)
/-- One chunk's new running denominator. -/
def stL (qv : FVec F S8x20x768 .f32) (d : Vec F S8x128x768 .f32) (m l : Vec F S8x20x1 .f32) : FVec F S8x20x1 .f32 :=
  k0_pay18 (k0_pay14 qv d) m (k0_pay15 qv d m) l
/-- One chunk's new running numerator. -/
def stA (qv : FVec F S8x20x768 .f32) (d : Vec F S8x128x768 .f32) (m : Vec F S8x20x1 .f32) (a : Vec F S8x20x768 .f32) : FVec F S8x20x768 .f32 :=
  k0_pay19 d (k0_pay14 qv d) m (k0_pay15 qv d m) a

def bM1 (x0 : Vec F S8x20x128 .f32) (x1 : Vec F S8x512x768 .f32) (x2 : Vec F S128x768 .f32) : FVec F S8x20x1 .f32 :=
  stM (k0_pay3 x0 x2) (dsub0 x1) k0_pay4
def bM2 (x0 : Vec F S8x20x128 .f32) (x1 : Vec F S8x512x768 .f32) (x2 : Vec F S128x768 .f32) : FVec F S8x20x1 .f32 :=
  stM (k0_pay3 x0 x2) (dsub1 x1) (bM1 x0 x1 x2)
def bM3 (x0 : Vec F S8x20x128 .f32) (x1 : Vec F S8x512x768 .f32) (x2 : Vec F S128x768 .f32) : FVec F S8x20x1 .f32 :=
  stM (k0_pay3 x0 x2) (dsub2 x1) (bM2 x0 x1 x2)

def bL1 (x0 : Vec F S8x20x128 .f32) (x1 : Vec F S8x512x768 .f32) (x2 : Vec F S128x768 .f32) : FVec F S8x20x1 .f32 :=
  stL (k0_pay3 x0 x2) (dsub0 x1) k0_pay4 k0_pay5
def bL2 (x0 : Vec F S8x20x128 .f32) (x1 : Vec F S8x512x768 .f32) (x2 : Vec F S128x768 .f32) : FVec F S8x20x1 .f32 :=
  stL (k0_pay3 x0 x2) (dsub1 x1) (bM1 x0 x1 x2) (bL1 x0 x1 x2)
def bL3 (x0 : Vec F S8x20x128 .f32) (x1 : Vec F S8x512x768 .f32) (x2 : Vec F S128x768 .f32) : FVec F S8x20x1 .f32 :=
  stL (k0_pay3 x0 x2) (dsub2 x1) (bM2 x0 x1 x2) (bL2 x0 x1 x2)
def bL4 (x0 : Vec F S8x20x128 .f32) (x1 : Vec F S8x512x768 .f32) (x2 : Vec F S128x768 .f32) : FVec F S8x20x1 .f32 :=
  stL (k0_pay3 x0 x2) (dsub3 x1) (bM3 x0 x1 x2) (bL3 x0 x1 x2)

def bA1 (x0 : Vec F S8x20x128 .f32) (x1 : Vec F S8x512x768 .f32) (x2 : Vec F S128x768 .f32) : FVec F S8x20x768 .f32 :=
  stA (k0_pay3 x0 x2) (dsub0 x1) k0_pay4 k0_pay6
def bA2 (x0 : Vec F S8x20x128 .f32) (x1 : Vec F S8x512x768 .f32) (x2 : Vec F S128x768 .f32) : FVec F S8x20x768 .f32 :=
  stA (k0_pay3 x0 x2) (dsub1 x1) (bM1 x0 x1 x2) (bA1 x0 x1 x2)
def bA3 (x0 : Vec F S8x20x128 .f32) (x1 : Vec F S8x512x768 .f32) (x2 : Vec F S128x768 .f32) : FVec F S8x20x768 .f32 :=
  stA (k0_pay3 x0 x2) (dsub2 x1) (bM2 x0 x1 x2) (bA2 x0 x1 x2)
def bA4 (x0 : Vec F S8x20x128 .f32) (x1 : Vec F S8x512x768 .f32) (x2 : Vec F S128x768 .f32) : FVec F S8x20x768 .f32 :=
  stA (k0_pay3 x0 x2) (dsub3 x1) (bM3 x0 x1 x2) (bA3 x0 x1 x2)

/-- The output block of a grid point: the embedding rows, then numerator over denominator. -/
def blkFn (x0 : Vec F S8x20x128 .f32) (x1 : Vec F S8x512x768 .f32) (x2 : Vec F S128x768 .f32) : FVec F S8x20x896 .f32 :=
  k0_pay1 (k0_pay2 x0) (k0_pay36 (bA4 x0 x1 x2) (bL4 x0 x1 x2))

/-- What the body's run leaves in the output's staging buffer is the block function of the input blocks. -/
theorem out_piece (c : Dev nD) (i : grid0.Coords) (arg1 : Memref sig .tc .vmem S8x20x128 .f32) (harg1 : arg1.IsWhole) (arg2 : Memref sig .tc .vmem S8x512x768 .f32) (harg2 : arg2.IsWhole) (arg3 : Memref sig .tc .vmem S128x768 .f32) (harg3 : arg3.IsWhole) (arg4 : Memref sig .tc .vmem S8x20x896 .f32) (harg4 : arg4.IsWhole) (arg5 : Memref sig .tc .vmem S8x20x1 .f32) (harg5 : arg5.IsWhole) (arg6 : Memref sig .tc .vmem S8x20x1 .f32) (harg6 : arg6.IsWhole) (arg7 : Memref sig .tc .vmem S8x20x768 .f32) (harg7 : arg7.IsWhole)
    (x0 : Vec F S8x20x128 .f32) (x1 : Vec F S8x512x768 .f32) (x2 : Vec F S128x768 .f32) :
    out0_A_3 c i arg1 harg1 arg2 harg2 arg3 harg3 arg4 harg4 arg5 harg5 arg6 harg6 arg7 harg7 x0 x1 x2 = blkFn x0 x1 x2 := by
  unfold out0_A_3
  rw [View.read_writes_eq_canon _ _ _ (cover0_A_3 c i arg1 harg1 arg2 harg2 arg3 harg3 arg4 harg4 arg5 harg5 arg6 harg6 arg7 harg7 x0 x1 x2)]
  unfold kernelRun0_A
  dsimp only
  sl_unfold_words
  rw [View.canon_unit_zero hz3]
  simp only [View.readAt_eq_ld, harg1.read_unread, harg2.read_unread, harg3.read_unread,
    View.ld_unit_zero (S := S8x20x128) hz3, View.ld_unit_zero (S := S128x768) hz2,
    readCov_cons_unit_zero (S := S8x20x1) _ hz3, readCov_cons_unit_zero (S := S8x20x768) _ hz3]
  rfl

end Cert.Attn.Ker

end
-- ==== Proof.Row.lean ====
/-
  One row of the attention block, on the extended reals: the data both programs are compared through.

  A row is a pair (batch b, skill s). Its embedding row `e` (128 entries) is projected by `W` to a query
  `q h = ∑ d, e d * W d h`; its scores against the 512 description tokens are `sc l = ∑ h, q h * D l h`.
  The reference normalises `exp (sc l - M)` by their sum `Z` (with `M` the row's maximum) and returns
  `∑ l, (exp (sc l - M) / Z) * D l h`.  The kernel walks the 512 tokens in four chunks of 128, keeping a running
  maximum `m`, a running denominator `l` and a running numerator `acc`, each rescaled by `exp (m_old - m_new)`
  when the maximum moves, and returns `acc h / l` at the end.  Both then put the embedding row in front.
-/
import Idealize.ShloMosaic.PureOps.Ideal

noncomputable section

open scoped BigOperators

namespace Cert.Attn

open Idealize.ShloMosaic

/-- The query row: the embedding row times the projection. -/
def qRow (e : Fin 128 → EReal) (W : Fin 128 → Fin 768 → EReal) (h : Fin 768) : EReal :=
  ∑ d : Fin 128, e d * W d h

/-- The row's scores against the description tokens. -/
def scoreRow (q : Fin 768 → EReal) (D : Fin 512 → Fin 768 → EReal) (l : Fin 512) : EReal :=
  ∑ h : Fin 768, q h * D l h

/-- The maximum of finitely many extended reals, from `⊥`. -/
def rowMax {n : Nat} (s : Fin n → EReal) : EReal :=
  (Finset.univ : Finset (Fin n)).fold max ⊥ s

/-! ## The reference's row -/

/-- The shift the reference subtracts: the row's maximum (joined once more with `⊥`, as the program does). -/
def refMax (sc : Fin 512 → EReal) : EReal := max ⊥ (rowMax sc)

/-- The reference's denominator. -/
def refZ (sc : Fin 512 → EReal) : EReal := 0 + ∑ l : Fin 512, Ideal.exp (sc l - refMax sc)

/-- The reference's attention output at hidden coordinate `h`. -/
def refRow (sc : Fin 512 → EReal) (D : Fin 512 → Fin 768 → EReal) (h : Fin 768) : EReal :=
  ∑ l : Fin 512, Ideal.div (Ideal.exp (sc l - refMax sc)) (refZ sc) * D l h

/-! ## The kernel's row: four chunks of 128 tokens -/

/-- Token `k` of chunk `c`. -/
def chunkIdx (c : Fin 4) (k : Fin 128) : Fin 512 := ⟨128 * c.val + k.val, by omega⟩

/-- The scores of chunk `c`. -/
def sChunk (sc : Fin 512 → EReal) (c : Fin 4) : Fin 128 → EReal := fun k => sc (chunkIdx c k)

/-- The description rows of chunk `c`. -/
def dChunk (D : Fin 512 → Fin 768 → EReal) (c : Fin 4) : Fin 128 → Fin 768 → EReal := fun k h => D (chunkIdx c k) h

/-- One chunk's new running maximum. -/
def stepM (s : Fin 128 → EReal) (m : EReal) : EReal := max m (rowMax s)

/-- One chunk's new running denominator. -/
def stepL (s : Fin 128 → EReal) (m l : EReal) : EReal :=
  Ideal.exp (m - stepM s m) * l + ∑ k : Fin 128, Ideal.exp (s k - stepM s m)

/-- One chunk's new running numerator at hidden coordinate `h`. -/
def stepA (s : Fin 128 → EReal) (Dc : Fin 128 → Fin 768 → EReal) (m : EReal) (acc : Fin 768 → EReal) (h : Fin 768) : EReal :=
  Ideal.exp (m - stepM s m) * acc h + ∑ k : Fin 128, Ideal.exp (s k - stepM s m) * Dc k h

def kM1 (sc : Fin 512 → EReal) : EReal := stepM (sChunk sc 0) ⊥
def kM2 (sc : Fin 512 → EReal) : EReal := stepM (sChunk sc 1) (kM1 sc)
def kM3 (sc : Fin 512 → EReal) : EReal := stepM (sChunk sc 2) (kM2 sc)

def kL1 (sc : Fin 512 → EReal) : EReal := stepL (sChunk sc 0) ⊥ 0
def kL2 (sc : Fin 512 → EReal) : EReal := stepL (sChunk sc 1) (kM1 sc) (kL1 sc)
def kL3 (sc : Fin 512 → EReal) : EReal := stepL (sChunk sc 2) (kM2 sc) (kL2 sc)
def kL4 (sc : Fin 512 → EReal) : EReal := stepL (sChunk sc 3) (kM3 sc) (kL3 sc)

def kA1 (sc : Fin 512 → EReal) (D : Fin 512 → Fin 768 → EReal) : Fin 768 → EReal :=
  stepA (sChunk sc 0) (dChunk D 0) ⊥ (fun _ => 0)
def kA2 (sc : Fin 512 → EReal) (D : Fin 512 → Fin 768 → EReal) : Fin 768 → EReal :=
  stepA (sChunk sc 1) (dChunk D 1) (kM1 sc) (kA1 sc D)
def kA3 (sc : Fin 512 → EReal) (D : Fin 512 → Fin 768 → EReal) : Fin 768 → EReal :=
  stepA (sChunk sc 2) (dChunk D 2) (kM2 sc) (kA2 sc D)
def kA4 (sc : Fin 512 → EReal) (D : Fin 512 → Fin 768 → EReal) : Fin 768 → EReal :=
  stepA (sChunk sc 3) (dChunk D 3) (kM3 sc) (kA3 sc D)

/-- The kernel's attention output at hidden coordinate `h`. -/
def kerRow (sc : Fin 512 → EReal) (D : Fin 512 → Fin 768 → EReal) (h : Fin 768) : EReal :=
  Ideal.div (kA4 sc D h) (kL4 sc)

/-! ## The output row: the embedding row, then the attention output -/

/-- Coordinate `j` of the 896-wide output row, for either way `row` of computing the attention output. -/
def outRow (row : (Fin 512 → EReal) → (Fin 512 → Fin 768 → EReal) → Fin 768 → EReal)
    (e : Fin 128 → EReal) (W : Fin 128 → Fin 768 → EReal) (D : Fin 512 → Fin 768 → EReal) (j : Fin 896) : EReal :=
  if h : j.val < 128 then e ⟨j.val, h⟩
  else row (scoreRow (qRow e W) D) D ⟨j.val - 128, by have := j.isLt; omega⟩

end Cert.Attn

end
-- ==== Proof.KerBlock.lean ====
/-
  The output block of one grid point, read at an index: row (b, s) of the block is the kernel's output row of
  that row's embedding entries, the projection, and batch element b's description rows.
-/
import proofs.«425159_j37976100831406_2_alg».proof.Proof.KerPiece
import proofs.«425159_j37976100831406_2_alg».proof.Proof.Row
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Attn.Ker

open Idealize.ShloMosaic Idealize.ShloMosaic.TcCoe Idealize.ShloMosaic.ValueIdx
open Cert.KernelIdeal Cert.KernelIdeal.Gen Cert.Attn

namespace Blk

/-! ## The chunk's scores: the batched product of the query rows with a chunk's description rows -/

theorem lhs_sc_0 (i : S8x20x128.Idx) (q : dot_S8x20x768_S8x128x768_S8x20x128_2_2_1_1_0_0.contr.Idx) :
    (dot_S8x20x768_S8x128x768_S8x20x128_2_2_1_1_0_0.lhsIdx i q 0).val = (i 0).val := by
  unfold DotDims.lhsIdx
  rw [dif_pos (show (0 : Fin S8x20x768.rank) ∈ dot_S8x20x768_S8x128x768_S8x20x128_2_2_1_1_0_0.lhsBatch by decide)]
  rfl
theorem lhs_sc_1 (i : S8x20x128.Idx) (q : dot_S8x20x768_S8x128x768_S8x20x128_2_2_1_1_0_0.contr.Idx) :
    (dot_S8x20x768_S8x128x768_S8x20x128_2_2_1_1_0_0.lhsIdx i q 1).val = (i 1).val := by
  unfold DotDims.lhsIdx
  rw [dif_neg (show ¬(1 : Fin S8x20x768.rank) ∈ dot_S8x20x768_S8x128x768_S8x20x128_2_2_1_1_0_0.lhsBatch by decide), dif_pos (show (1 : Fin S8x20x768.rank) ∈ dot_S8x20x768_S8x128x768_S8x20x128_2_2_1_1_0_0.lhsNonContracting by decide)]
  rfl
theorem lhs_sc_2 (i : S8x20x128.Idx) (q : dot_S8x20x768_S8x128x768_S8x20x128_2_2_1_1_0_0.contr.Idx) :
    (dot_S8x20x768_S8x128x768_S8x20x128_2_2_1_1_0_0.lhsIdx i q 2).val = (q ⟨0, by decide⟩).val :=
  dot_S8x20x768_S8x128x768_S8x20x128_2_2_1_1_0_0.lhsIdx_val_of_single rfl i q
theorem rhs_sc_0 (i : S8x20x128.Idx) (q : dot_S8x20x768_S8x128x768_S8x20x128_2_2_1_1_0_0.contr.Idx) :
    (dot_S8x20x768_S8x128x768_S8x20x128_2_2_1_1_0_0.rhsIdx i q 0).val = (i 0).val := by
  unfold DotDims.rhsIdx
  rw [dif_pos (show (0 : Fin S8x128x768.rank) ∈ dot_S8x20x768_S8x128x768_S8x20x128_2_2_1_1_0_0.rhsBatch by decide)]
  rfl
theorem rhs_sc_1 (i : S8x20x128.Idx) (q : dot_S8x20x768_S8x128x768_S8x20x128_2_2_1_1_0_0.contr.Idx) :
    (dot_S8x20x768_S8x128x768_S8x20x128_2_2_1_1_0_0.rhsIdx i q 1).val = (i 2).val := by
  unfold DotDims.rhsIdx
  rw [dif_neg (show ¬(1 : Fin S8x128x768.rank) ∈ dot_S8x20x768_S8x128x768_S8x20x128_2_2_1_1_0_0.rhsBatch by decide), dif_pos (show (1 : Fin S8x128x768.rank) ∈ dot_S8x20x768_S8x128x768_S8x20x128_2_2_1_1_0_0.rhsNonContracting by decide)]
  rfl
theorem rhs_sc_2 (i : S8x20x128.Idx) (q : dot_S8x20x768_S8x128x768_S8x20x128_2_2_1_1_0_0.contr.Idx) :
    (dot_S8x20x768_S8x128x768_S8x20x128_2_2_1_1_0_0.rhsIdx i q 2).val = (q ⟨0, by decide⟩).val :=
  dot_S8x20x768_S8x128x768_S8x20x128_2_2_1_1_0_0.rhsIdx_val_of_single rfl i q

/-- Score (b, s, k) of a chunk: the query row (b, s) against the chunk's description row (b, k). -/
theorem pay14_apply (qv : FVec Ideal S8x20x768 .f32) (d : Vec Ideal S8x128x768 .f32) (b : Fin 8) (s : Fin 20) (k : Fin 128) :
    k0_pay14 (F := Ideal) qv d (ix3 b s k) = ∑ h : Fin 768, qv (ix3 b s h) * d (ix3 b k h) := by
  unfold k0_pay14
  refine (Ideal.matmul_constant_zero_apply dot_S8x20x768_S8x128x768_S8x20x128_2_2_1_1_0_0 (some .fp32) qv d (ix3 b s k)).trans ?_
  rw [← Equiv.sum_comp (ValueIdx.contrEquiv1 dot_S8x20x768_S8x128x768_S8x20x128_2_2_1_1_0_0 768 rfl rfl).symm]
  refine Finset.sum_congr rfl fun h _ => ?_
  have hk := ValueIdx.contrEquiv1_symm_val dot_S8x20x768_S8x128x768_S8x20x128_2_2_1_1_0_0 768 rfl rfl h
  have el : dot_S8x20x768_S8x128x768_S8x20x128_2_2_1_1_0_0.lhsIdx (ix3 b s k) ((ValueIdx.contrEquiv1 dot_S8x20x768_S8x128x768_S8x20x128_2_2_1_1_0_0 768 rfl rfl).symm h) = ix3 b s h := funext fun a => Fin.ext (by
    match a with
    | ⟨0, _⟩ => exact lhs_sc_0 _ _
    | ⟨1, _⟩ => exact lhs_sc_1 _ _
    | ⟨2, _⟩ => exact (lhs_sc_2 _ _).trans hk)
  have er : dot_S8x20x768_S8x128x768_S8x20x128_2_2_1_1_0_0.rhsIdx (ix3 b s k) ((ValueIdx.contrEquiv1 dot_S8x20x768_S8x128x768_S8x20x128_2_2_1_1_0_0 768 rfl rfl).symm h) = ix3 b k h := funext fun a => Fin.ext (by
    match a with
    | ⟨0, _⟩ => exact rhs_sc_0 _ _
    | ⟨1, _⟩ => exact rhs_sc_1 _ _
    | ⟨2, _⟩ => exact (rhs_sc_2 _ _).trans hk)
  rw [el, er]

/-! ## The layout operations of the step, read at an index -/

/-- The word the running maximum is reset to is the bottom of the extended reals. -/
theorem ofBits_negInf : Ideal.ofBits .f32 0xFF800000#32 = ⊥ := by simp [Ideal.ofBits, Ideal.ieee]

/-- A value per row (b, s), viewed as a column with one entry per row. -/
theorem col_apply {α : Type} (v : S8x20.Idx → α) (b : Fin 8) (s : Fin 20) (u : Fin 1) :
    shapeCast S8x20x1 v shapeCasts_S8x20_S8x20x1 (ix3 b s u) = v (ix2 b s) :=
  shapeCast_apply v shapeCasts_S8x20_S8x20x1 (ix3 b s u) (ix2 b s) (by
    rw [Shape.rowMajor_val_two, Shape.rowMajor_val_three]
    show b.val * 20 + s.val = (b.val * 20 + s.val) * 1 + u.val
    omega)

/-- A column spread over the 128 lanes of a chunk reads the row's entry. -/
theorem spread128_apply {α : Type} (v : S8x20x1.Idx → α) (b : Fin 8) (s : Fin 20) (k : Fin 128) :
    broadcastTo S8x20x128 v broadcasts_S8x20x1_S8x20x128 (ix3 b s k) = v (ix3 b s (0 : Fin 1)) :=
  broadcastTo_apply v broadcasts_S8x20x1_S8x20x128 (ix3 b s k) (ix3 b s (0 : Fin 1)) fun a => match a with
    | ⟨0, _⟩ => by show b.val = if (8 : Nat) = 1 then 0 else b.val; rw [if_neg (by decide)]
    | ⟨1, _⟩ => by show s.val = if (20 : Nat) = 1 then 0 else s.val; rw [if_neg (by decide)]
    | ⟨2, _⟩ => by show 0 = if (1 : Nat) = 1 then 0 else k.val; rw [if_pos rfl]

/-- A column spread over the 768 hidden coordinates reads the row's entry. -/
theorem spread768_apply {α : Type} (v : S8x20x1.Idx → α) (b : Fin 8) (s : Fin 20) (h : Fin 768) :
    broadcastTo S8x20x768 v broadcasts_S8x20x1_S8x20x768 (ix3 b s h) = v (ix3 b s (0 : Fin 1)) :=
  broadcastTo_apply v broadcasts_S8x20x1_S8x20x768 (ix3 b s h) (ix3 b s (0 : Fin 1)) fun a => match a with
    | ⟨0, _⟩ => by show b.val = if (8 : Nat) = 1 then 0 else b.val; rw [if_neg (by decide)]
    | ⟨1, _⟩ => by show s.val = if (20 : Nat) = 1 then 0 else s.val; rw [if_neg (by decide)]
    | ⟨2, _⟩ => by show 0 = if (1 : Nat) = 1 then 0 else h.val; rw [if_pos rfl]

/-- The maximum over a chunk's 128 lanes, at row (b, s). -/
theorem laneMax_apply (src : FVec Ideal S8x20x128 .f32) (b : Fin 8) (s : Fin 20) :
    multiReduction (F := Ideal) .maximumf [2] S8x20 src 0xFF800000#32 reduces_S8x20x128_S8x20 (.inl rfl) rfl (ix2 b s)
      = rowMax (fun k : Fin 128 => src (ix3 b s k)) := by
  refine (Ideal.multiReduction_maximumf_single src 0xFF800000#32 reduces_S8x20x128_S8x20 (.inl rfl) rfl (ix2 b s)).trans ?_
  have e : (src ∘ reduces_S8x20x128_S8x20.lift (ix2 b s)) = (fun k : Fin 128 => src (ix3 b s k)) :=
    funext fun k => congrArg src (funext fun a => Fin.ext (by
      match a with
      | ⟨0, _⟩ => rfl
      | ⟨1, _⟩ => rfl
      | ⟨2, _⟩ => rfl))
  rw [e]
  show (Finset.univ : Finset (Fin 128)).fold max (Ideal.ofBits .f32 0xFF800000#32) _ = _
  rw [ofBits_negInf]
  rfl

/-- The sum over a chunk's 128 lanes, at row (b, s). -/
theorem laneSum_apply (src : FVec Ideal S8x20x128 .f32) (b : Fin 8) (s : Fin 20) :
    multiReduction (F := Ideal) .add [2] S8x20 src 0x00000000#32 reduces_S8x20x128_S8x20 (.inl rfl) rfl (ix2 b s)
      = ∑ k : Fin 128, src (ix3 b s k) := by
  refine (Ideal.multiReduction_add_single src 0x00000000#32 reduces_S8x20x128_S8x20 (.inl rfl) rfl (ix2 b s)).trans ?_
  refine Finset.sum_congr rfl fun k _ => congrArg src (funext fun a => Fin.ext (by
    match a with
    | ⟨0, _⟩ => rfl
    | ⟨1, _⟩ => rfl
    | ⟨2, _⟩ => rfl))

/-! ## One chunk's step at a row -/

/-- The new running maximum of row (b, s): the old one joined with the maximum of the chunk's scores. -/
theorem pay15_apply (qv : FVec Ideal S8x20x768 .f32) (d : Vec Ideal S8x128x768 .f32) (m : Vec Ideal S8x20x1 .f32) (b : Fin 8) (s : Fin 20) :
    k0_pay15 (F := Ideal) qv d m (ix3 b s (0 : Fin 1))
      = stepM (fun k : Fin 128 => k0_pay14 (F := Ideal) qv d (ix3 b s k)) (m (ix3 b s (0 : Fin 1))) := by
  unfold k0_pay15 stepM
  refine congrArg (max (m (ix3 b s (0 : Fin 1)))) ?_
  refine (col_apply _ b s 0).trans ?_
  exact laneMax_apply _ b s

theorem stM_apply (qv : FVec Ideal S8x20x768 .f32) (d : Vec Ideal S8x128x768 .f32) (m : Vec Ideal S8x20x1 .f32) (b : Fin 8) (s : Fin 20) :
    stM (F := Ideal) qv d m (ix3 b s (0 : Fin 1))
      = stepM (fun k : Fin 128 => k0_pay14 (F := Ideal) qv d (ix3 b s k)) (m (ix3 b s (0 : Fin 1))) := by
  unfold stM k0_pay20
  refine (congrFun (shapeCast_self _ shapeCasts_S8x20x1_S8x20x1) _).trans ?_
  exact pay15_apply qv d m b s

/-- The rescaling factor of row (b, s). -/
theorem pay16_apply (m : Vec Ideal S8x20x1 .f32) (M : FVec Ideal S8x20x1 .f32) (i : S8x20x1.Idx) :
    k0_pay16 (F := Ideal) m M i = Ideal.exp (m i - M i) := rfl

/-- The chunk's weights: the exponential of score minus the new maximum. -/
theorem pay17_apply (sc : FVec Ideal S8x20x128 .f32) (M : FVec Ideal S8x20x1 .f32) (b : Fin 8) (s : Fin 20) (k : Fin 128) :
    k0_pay17 (F := Ideal) sc M (ix3 b s k) = Ideal.exp (sc (ix3 b s k) - M (ix3 b s (0 : Fin 1))) := by
  unfold k0_pay17
  show Ideal.exp (sc (ix3 b s k) - broadcastTo S8x20x128 M broadcasts_S8x20x1_S8x20x128 (ix3 b s k)) = _
  rw [spread128_apply M b s k]

/-- The new running denominator of row (b, s), for any new maximum `M`. -/
theorem pay18_apply (sc : FVec Ideal S8x20x128 .f32) (m : Vec Ideal S8x20x1 .f32) (M : FVec Ideal S8x20x1 .f32) (l : Vec Ideal S8x20x1 .f32)
    (b : Fin 8) (s : Fin 20) :
    k0_pay18 (F := Ideal) sc m M l (ix3 b s (0 : Fin 1))
      = Ideal.exp (m (ix3 b s (0 : Fin 1)) - M (ix3 b s (0 : Fin 1))) * l (ix3 b s (0 : Fin 1))
        + ∑ k : Fin 128, Ideal.exp (sc (ix3 b s k) - M (ix3 b s (0 : Fin 1))) := by
  unfold k0_pay18
  refine (congrFun (shapeCast_self _ shapeCasts_S8x20x1_S8x20x1) _).trans ?_
  refine congrArg (Ideal.exp (m (ix3 b s (0 : Fin 1)) - M (ix3 b s (0 : Fin 1))) * l (ix3 b s (0 : Fin 1)) + ·) ?_
  refine (col_apply _ b s 0).trans ?_
  refine (laneSum_apply _ b s).trans ?_
  exact Finset.sum_congr rfl fun k _ => pay17_apply sc M b s k

theorem stL_apply (qv : FVec Ideal S8x20x768 .f32) (d : Vec Ideal S8x128x768 .f32) (m l : Vec Ideal S8x20x1 .f32) (b : Fin 8) (s : Fin 20) :
    stL (F := Ideal) qv d m l (ix3 b s (0 : Fin 1))
      = stepL (fun k : Fin 128 => k0_pay14 (F := Ideal) qv d (ix3 b s k)) (m (ix3 b s (0 : Fin 1))) (l (ix3 b s (0 : Fin 1))) := by
  unfold stL stepL
  refine (pay18_apply _ m _ l b s).trans ?_
  rw [pay15_apply qv d m b s]

/-! ## The chunk's weighted sum of description rows: the batched product of the weights with the chunk's rows -/

theorem lhs_ws_0 (i : S8x20x768.Idx) (q : dot_S8x20x128_S8x128x768_S8x20x768_2_1_1_2_0_0.contr.Idx) :
    (dot_S8x20x128_S8x128x768_S8x20x768_2_1_1_2_0_0.lhsIdx i q 0).val = (i 0).val := by
  unfold DotDims.lhsIdx
  rw [dif_pos (show (0 : Fin S8x20x128.rank) ∈ dot_S8x20x128_S8x128x768_S8x20x768_2_1_1_2_0_0.lhsBatch by decide)]
  rfl
theorem lhs_ws_1 (i : S8x20x768.Idx) (q : dot_S8x20x128_S8x128x768_S8x20x768_2_1_1_2_0_0.contr.Idx) :
    (dot_S8x20x128_S8x128x768_S8x20x768_2_1_1_2_0_0.lhsIdx i q 1).val = (i 1).val := by
  unfold DotDims.lhsIdx
  rw [dif_neg (show ¬(1 : Fin S8x20x128.rank) ∈ dot_S8x20x128_S8x128x768_S8x20x768_2_1_1_2_0_0.lhsBatch by decide), dif_pos (show (1 : Fin S8x20x128.rank) ∈ dot_S8x20x128_S8x128x768_S8x20x768_2_1_1_2_0_0.lhsNonContracting by decide)]
  rfl
theorem lhs_ws_2 (i : S8x20x768.Idx) (q : dot_S8x20x128_S8x128x768_S8x20x768_2_1_1_2_0_0.contr.Idx) :
    (dot_S8x20x128_S8x128x768_S8x20x768_2_1_1_2_0_0.lhsIdx i q 2).val = (q ⟨0, by decide⟩).val :=
  dot_S8x20x128_S8x128x768_S8x20x768_2_1_1_2_0_0.lhsIdx_val_of_single rfl i q
theorem rhs_ws_0 (i : S8x20x768.Idx) (q : dot_S8x20x128_S8x128x768_S8x20x768_2_1_1_2_0_0.contr.Idx) :
    (dot_S8x20x128_S8x128x768_S8x20x768_2_1_1_2_0_0.rhsIdx i q 0).val = (i 0).val := by
  unfold DotDims.rhsIdx
  rw [dif_pos (show (0 : Fin S8x128x768.rank) ∈ dot_S8x20x128_S8x128x768_S8x20x768_2_1_1_2_0_0.rhsBatch by decide)]
  rfl
theorem rhs_ws_1 (i : S8x20x768.Idx) (q : dot_S8x20x128_S8x128x768_S8x20x768_2_1_1_2_0_0.contr.Idx) :
    (dot_S8x20x128_S8x128x768_S8x20x768_2_1_1_2_0_0.rhsIdx i q 1).val = (q ⟨0, by decide⟩).val :=
  dot_S8x20x128_S8x128x768_S8x20x768_2_1_1_2_0_0.rhsIdx_val_of_single rfl i q
theorem rhs_ws_2 (i : S8x20x768.Idx) (q : dot_S8x20x128_S8x128x768_S8x20x768_2_1_1_2_0_0.contr.Idx) :
    (dot_S8x20x128_S8x128x768_S8x20x768_2_1_1_2_0_0.rhsIdx i q 2).val = (i 2).val := by
  unfold DotDims.rhsIdx
  rw [dif_neg (show ¬(2 : Fin S8x128x768.rank) ∈ dot_S8x20x128_S8x128x768_S8x20x768_2_1_1_2_0_0.rhsBatch by decide), dif_pos (show (2 : Fin S8x128x768.rank) ∈ dot_S8x20x128_S8x128x768_S8x20x768_2_1_1_2_0_0.rhsNonContracting by decide)]
  rfl

/-- Entry (b, s, h) of the weights times the chunk's rows: the sum over the chunk's 128 tokens. -/
theorem wsum_apply (w : FVec Ideal S8x20x128 .bf16) (dd : FVec Ideal S8x128x768 .bf16) (b : Fin 8) (s : Fin 20) (h : Fin 768) :
    matmul (F := Ideal) dot_S8x20x128_S8x128x768_S8x20x768_2_1_1_2_0_0 none w dd (constant (F := Ideal) S8x20x768 .f32 0x00000000#32) (ix3 b s h)
      = ∑ k : Fin 128, w (ix3 b s k) * dd (ix3 b k h) := by
  refine (Ideal.matmul_constant_zero_apply dot_S8x20x128_S8x128x768_S8x20x768_2_1_1_2_0_0 none w dd (ix3 b s h)).trans ?_
  rw [← Equiv.sum_comp (ValueIdx.contrEquiv1 dot_S8x20x128_S8x128x768_S8x20x768_2_1_1_2_0_0 128 rfl rfl).symm]
  refine Finset.sum_congr rfl fun k _ => ?_
  have hk := ValueIdx.contrEquiv1_symm_val dot_S8x20x128_S8x128x768_S8x20x768_2_1_1_2_0_0 128 rfl rfl k
  have el : dot_S8x20x128_S8x128x768_S8x20x768_2_1_1_2_0_0.lhsIdx (ix3 b s h) ((ValueIdx.contrEquiv1 dot_S8x20x128_S8x128x768_S8x20x768_2_1_1_2_0_0 128 rfl rfl).symm k) = ix3 b s k := funext fun a => Fin.ext (by
    match a with
    | ⟨0, _⟩ => exact lhs_ws_0 _ _
    | ⟨1, _⟩ => exact lhs_ws_1 _ _
    | ⟨2, _⟩ => exact (lhs_ws_2 _ _).trans hk)
  have er : dot_S8x20x128_S8x128x768_S8x20x768_2_1_1_2_0_0.rhsIdx (ix3 b s h) ((ValueIdx.contrEquiv1 dot_S8x20x128_S8x128x768_S8x20x768_2_1_1_2_0_0 128 rfl rfl).symm k) = ix3 b k h := funext fun a => Fin.ext (by
    match a with
    | ⟨0, _⟩ => exact rhs_ws_0 _ _
    | ⟨1, _⟩ => exact (rhs_ws_1 _ _).trans hk
    | ⟨2, _⟩ => exact rhs_ws_2 _ _)
  rw [el, er]

/-- The new running numerator of row (b, s) at hidden coordinate h, for any new maximum `M`. -/
theorem pay19_apply (d : Vec Ideal S8x128x768 .f32) (sc : FVec Ideal S8x20x128 .f32) (m : Vec Ideal S8x20x1 .f32) (M : FVec Ideal S8x20x1 .f32)
    (a : Vec Ideal S8x20x768 .f32) (b : Fin 8) (s : Fin 20) (h : Fin 768) :
    k0_pay19 (F := Ideal) d sc m M a (ix3 b s h)
      = Ideal.exp (m (ix3 b s (0 : Fin 1)) - M (ix3 b s (0 : Fin 1))) * a (ix3 b s h)
        + ∑ k : Fin 128, Ideal.exp (sc (ix3 b s k) - M (ix3 b s (0 : Fin 1))) * d (ix3 b k h) := by
  unfold k0_pay19
  refine (congrFun (shapeCast_self _ shapeCasts_S8x20x768_S8x20x768) _).trans ?_
  refine congrArg₂ (· + ·) (congrArg (· * a (ix3 b s h)) ((spread768_apply _ b s h).trans (pay16_apply m M _))) ?_
  refine (wsum_apply _ _ b s h).trans ?_
  exact Finset.sum_congr rfl fun k _ => congrArg (· * d (ix3 b k h)) (pay17_apply sc M b s k)

theorem stA_apply (qv : FVec Ideal S8x20x768 .f32) (d : Vec Ideal S8x128x768 .f32) (m : Vec Ideal S8x20x1 .f32) (a : Vec Ideal S8x20x768 .f32)
    (b : Fin 8) (s : Fin 20) (h : Fin 768) :
    stA (F := Ideal) qv d m a (ix3 b s h)
      = stepA (fun k : Fin 128 => k0_pay14 (F := Ideal) qv d (ix3 b s k)) (fun (k : Fin 128) (h : Fin 768) => d (ix3 b k h))
          (m (ix3 b s (0 : Fin 1))) (fun h : Fin 768 => a (ix3 b s h)) h := by
  unfold stA stepA
  refine (pay19_apply d _ m _ a b s h).trans ?_
  rw [pay15_apply qv d m b s]

/-! ## The query rows: the embedding rows, flattened to 160 rows, times the projection -/

theorem lhs_q_0 (i : S160x768.Idx) (q : dot_S160x128_S128x768_S160x768_1_0_0_1_n_n.contr.Idx) :
    (dot_S160x128_S128x768_S160x768_1_0_0_1_n_n.lhsIdx i q 0).val = (i 0).val := by
  unfold DotDims.lhsIdx
  rw [dif_neg (show ¬(0 : Fin S160x128.rank) ∈ dot_S160x128_S128x768_S160x768_1_0_0_1_n_n.lhsBatch by decide), dif_pos (show (0 : Fin S160x128.rank) ∈ dot_S160x128_S128x768_S160x768_1_0_0_1_n_n.lhsNonContracting by decide)]
  rfl
theorem lhs_q_1 (i : S160x768.Idx) (q : dot_S160x128_S128x768_S160x768_1_0_0_1_n_n.contr.Idx) :
    (dot_S160x128_S128x768_S160x768_1_0_0_1_n_n.lhsIdx i q 1).val = (q ⟨0, by decide⟩).val :=
  dot_S160x128_S128x768_S160x768_1_0_0_1_n_n.lhsIdx_val_of_single rfl i q
theorem rhs_q_0 (i : S160x768.Idx) (q : dot_S160x128_S128x768_S160x768_1_0_0_1_n_n.contr.Idx) :
    (dot_S160x128_S128x768_S160x768_1_0_0_1_n_n.rhsIdx i q 0).val = (q ⟨0, by decide⟩).val :=
  dot_S160x128_S128x768_S160x768_1_0_0_1_n_n.rhsIdx_val_of_single rfl i q
theorem rhs_q_1 (i : S160x768.Idx) (q : dot_S160x128_S128x768_S160x768_1_0_0_1_n_n.contr.Idx) :
    (dot_S160x128_S128x768_S160x768_1_0_0_1_n_n.rhsIdx i q 1).val = (i 1).val := by
  unfold DotDims.rhsIdx
  rw [dif_neg (show ¬(1 : Fin S128x768.rank) ∈ dot_S160x128_S128x768_S160x768_1_0_0_1_n_n.rhsBatch by decide), dif_pos (show (1 : Fin S128x768.rank) ∈ dot_S160x128_S128x768_S160x768_1_0_0_1_n_n.rhsNonContracting by decide)]
  rfl

/-- Entry (r, h) of the flattened rows times the projection. -/
theorem qmat_apply (e : FVec Ideal S160x128 .bf16) (W : FVec Ideal S128x768 .bf16) (r : Fin 160) (h : Fin 768) :
    matmul (F := Ideal) dot_S160x128_S128x768_S160x768_1_0_0_1_n_n none e W (constant (F := Ideal) S160x768 .f32 0x00000000#32) (ix2 r h)
      = ∑ dd : Fin 128, e (ix2 r dd) * W (ix2 dd h) := by
  refine (Ideal.matmul_constant_zero_apply dot_S160x128_S128x768_S160x768_1_0_0_1_n_n none e W (ix2 r h)).trans ?_
  rw [← Equiv.sum_comp (ValueIdx.contrEquiv1 dot_S160x128_S128x768_S160x768_1_0_0_1_n_n 128 rfl rfl).symm]
  refine Finset.sum_congr rfl fun k _ => ?_
  have hk := ValueIdx.contrEquiv1_symm_val dot_S160x128_S128x768_S160x768_1_0_0_1_n_n 128 rfl rfl k
  have el : dot_S160x128_S128x768_S160x768_1_0_0_1_n_n.lhsIdx (ix2 r h) ((ValueIdx.contrEquiv1 dot_S160x128_S128x768_S160x768_1_0_0_1_n_n 128 rfl rfl).symm k) = ix2 r k := funext fun a => Fin.ext (by
    match a with
    | ⟨0, _⟩ => exact lhs_q_0 _ _
    | ⟨1, _⟩ => exact (lhs_q_1 _ _).trans hk)
  have er : dot_S160x128_S128x768_S160x768_1_0_0_1_n_n.rhsIdx (ix2 r h) ((ValueIdx.contrEquiv1 dot_S160x128_S128x768_S160x768_1_0_0_1_n_n 128 rfl rfl).symm k) = ix2 k h := funext fun a => Fin.ext (by
    match a with
    | ⟨0, _⟩ => exact (rhs_q_0 _ _).trans hk
    | ⟨1, _⟩ => exact rhs_q_1 _ _)
  rw [el, er]

/-- Row (b, s) of the block is row 20 b + s of the flattened rows. -/
def flatRow (b : Fin 8) (s : Fin 20) : Fin 160 := ⟨b.val * 20 + s.val, by omega⟩

/-- The query row of (b, s) at hidden coordinate h. -/
theorem pay3_apply (x0 : Vec Ideal S8x20x128 .f32) (x2 : Vec Ideal S128x768 .f32) (b : Fin 8) (s : Fin 20) (h : Fin 768) :
    k0_pay3 (F := Ideal) x0 x2 (ix3 b s h)
      = qRow (fun dd : Fin 128 => x0 (ix3 b s dd)) (fun (dd : Fin 128) (h : Fin 768) => x2 (ix2 dd h)) h := by
  unfold k0_pay3 qRow
  refine (shapeCast_apply _ shapeCasts_S160x768_S8x20x768 (ix3 b s h) (ix2 (flatRow b s) h) (by
    rw [Shape.rowMajor_val_two, Shape.rowMajor_val_three]
    show (b.val * 20 + s.val) * 768 + h.val = (b.val * 20 + s.val) * 768 + h.val
    rfl)).trans ?_
  refine (qmat_apply _ _ (flatRow b s) h).trans ?_
  refine Finset.sum_congr rfl fun dd _ => congrArg (· * x2 (ix2 dd h)) ?_
  refine (shapeCast_apply _ shapeCasts_S8x20x128_S160x128 (ix2 (flatRow b s) dd) (ix3 b s dd) (by
    rw [Shape.rowMajor_val_two, Shape.rowMajor_val_three]
    show (b.val * 20 + s.val) * 128 + dd.val = (b.val * 20 + s.val) * 128 + dd.val
    rfl)).trans ?_
  unfold k0_pay2
  exact congrFun (shapeCast_self x0 shapeCasts_S8x20x128_S8x20x128) _

/-! ## The four chunks of description rows, the reset values, the closing division and the joined row -/

theorem dsub0_apply (x1 : Vec Ideal S8x512x768 .f32) (b : Fin 8) (k : Fin 128) (h : Fin 768) :
    dsub0 (F := Ideal) x1 (ix3 b k h) = x1 (ix3 b (chunkIdx 0 k) h) := by
  unfold dsub0
  refine congrArg x1 (funext fun a => Fin.ext ?_)
  match a with
  | ⟨0, _⟩ => show 0 + 1 * b.val = b.val; omega
  | ⟨1, _⟩ => show 0 + 1 * k.val = 128 * 0 + k.val; omega
  | ⟨2, _⟩ => show 0 + 1 * h.val = h.val; omega
theorem dsub1_apply (x1 : Vec Ideal S8x512x768 .f32) (b : Fin 8) (k : Fin 128) (h : Fin 768) :
    dsub1 (F := Ideal) x1 (ix3 b k h) = x1 (ix3 b (chunkIdx 1 k) h) := by
  unfold dsub1
  refine congrArg x1 (funext fun a => Fin.ext ?_)
  match a with
  | ⟨0, _⟩ => show 0 + 1 * b.val = b.val; omega
  | ⟨1, _⟩ => show 128 + 1 * k.val = 128 * 1 + k.val; omega
  | ⟨2, _⟩ => show 0 + 1 * h.val = h.val; omega
theorem dsub2_apply (x1 : Vec Ideal S8x512x768 .f32) (b : Fin 8) (k : Fin 128) (h : Fin 768) :
    dsub2 (F := Ideal) x1 (ix3 b k h) = x1 (ix3 b (chunkIdx 2 k) h) := by
  unfold dsub2
  refine congrArg x1 (funext fun a => Fin.ext ?_)
  match a with
  | ⟨0, _⟩ => show 0 + 1 * b.val = b.val; omega
  | ⟨1, _⟩ => show 256 + 1 * k.val = 128 * 2 + k.val; omega
  | ⟨2, _⟩ => show 0 + 1 * h.val = h.val; omega
theorem dsub3_apply (x1 : Vec Ideal S8x512x768 .f32) (b : Fin 8) (k : Fin 128) (h : Fin 768) :
    dsub3 (F := Ideal) x1 (ix3 b k h) = x1 (ix3 b (chunkIdx 3 k) h) := by
  unfold dsub3
  refine congrArg x1 (funext fun a => Fin.ext ?_)
  match a with
  | ⟨0, _⟩ => show 0 + 1 * b.val = b.val; omega
  | ⟨1, _⟩ => show 384 + 1 * k.val = 128 * 3 + k.val; omega
  | ⟨2, _⟩ => show 0 + 1 * h.val = h.val; omega

/-- The running maximum starts at the bottom. -/
theorem pay4_apply (i : S8x20x1.Idx) : k0_pay4 (F := Ideal) i = ⊥ := by
  unfold k0_pay4
  refine (congrFun (shapeCast_self _ shapeCasts_S8x20x1_S8x20x1) _).trans ?_
  exact ofBits_negInf
/-- The running denominator starts at zero. -/
theorem pay5_apply (i : S8x20x1.Idx) : k0_pay5 (F := Ideal) i = 0 := by
  unfold k0_pay5
  refine (congrFun (shapeCast_self _ shapeCasts_S8x20x1_S8x20x1) _).trans ?_
  exact Ideal.ofBits_zero_f32
/-- The running numerator starts at zero. -/
theorem pay6_apply (i : S8x20x768.Idx) : k0_pay6 (F := Ideal) i = 0 := by
  unfold k0_pay6
  refine (congrFun (shapeCast_self _ shapeCasts_S8x20x768_S8x20x768) _).trans ?_
  exact Ideal.ofBits_zero_f32

/-- The closing division: numerator over the row's denominator. -/
theorem pay36_apply (A : Vec Ideal S8x20x768 .f32) (Lv : Vec Ideal S8x20x1 .f32) (b : Fin 8) (s : Fin 20) (h : Fin 768) :
    k0_pay36 (F := Ideal) A Lv (ix3 b s h) = Ideal.div (A (ix3 b s h)) (Lv (ix3 b s (0 : Fin 1))) := by
  unfold k0_pay36
  show Ideal.div (A (ix3 b s h)) (broadcastTo S8x20x768 Lv broadcasts_S8x20x1_S8x20x768 (ix3 b s h)) = _
  rw [spread768_apply Lv b s h]

/-- The first 128 coordinates of the joined row are the first piece's. -/
theorem pay1_left (v1 : FVec Ideal S8x20x128 .f32) (v159 : FVec Ideal S8x20x768 .f32) (b : Fin 8) (s : Fin 20) (j : Fin 896) (hj : j.val < 128) :
    k0_pay1 (F := Ideal) v1 v159 (ix3 b s j) = v1 (ix3 b s ⟨j.val, hj⟩) := by
  unfold k0_pay1
  exact concatenate_pair_apply_left 2 v1 v159 concatenates_S8x20x128_S8x20x768_S8x20x896_d2 (ix3 b s j) rfl (ix3 b s ⟨j.val, hj⟩)
    (fun a => match a with | ⟨0, _⟩ => rfl | ⟨1, _⟩ => rfl | ⟨2, _⟩ => rfl)

/-- The other 768 are the second piece's, 128 places earlier. -/
theorem pay1_right (v1 : FVec Ideal S8x20x128 .f32) (v159 : FVec Ideal S8x20x768 .f32) (b : Fin 8) (s : Fin 20) (j : Fin 896) (hj : 128 ≤ j.val) :
    k0_pay1 (F := Ideal) v1 v159 (ix3 b s j) = v159 (ix3 b s ⟨j.val - 128, by have := j.isLt; omega⟩) := by
  unfold k0_pay1
  exact concatenate_pair_apply_right 2 v1 v159 concatenates_S8x20x128_S8x20x768_S8x20x896_d2 (ix3 b s j) rfl rfl
    (ix3 b s ⟨j.val - 128, by have := j.isLt; omega⟩)
    (fun a hne => match a, hne with | ⟨0, _⟩, _ => rfl | ⟨1, _⟩, _ => rfl | ⟨2, _⟩, hne => absurd rfl hne)
    (by show (j.val - 128) + 128 = j.val; omega)

/-! ## The four steps at a row, and the block -/

/-- Row (b, s)'s scores against the 512 description rows of batch element b. -/
def scAt (x0 : Vec Ideal S8x20x128 .f32) (x1 : Vec Ideal S8x512x768 .f32) (x2 : Vec Ideal S128x768 .f32) (b : Fin 8) (s : Fin 20) :
    Fin 512 → EReal :=
  scoreRow (qRow (fun dd : Fin 128 => x0 (ix3 b s dd)) (fun (dd : Fin 128) (h : Fin 768) => x2 (ix2 dd h))) (fun (l : Fin 512) (h : Fin 768) => x1 (ix3 b l h))

/-- Against chunk c's rows the query row's scores are chunk c of the row's scores. -/
theorem chunk_scores (x0 : Vec Ideal S8x20x128 .f32) (x1 : Vec Ideal S8x512x768 .f32) (x2 : Vec Ideal S128x768 .f32) (b : Fin 8) (s : Fin 20)
    (c : Fin 4) (dc : Vec Ideal S8x128x768 .f32) (hd : ∀ (k : Fin 128) (h : Fin 768), dc (ix3 b k h) = x1 (ix3 b (chunkIdx c k) h)) :
    (fun k : Fin 128 => k0_pay14 (F := Ideal) (k0_pay3 x0 x2) dc (ix3 b s k)) = sChunk (scAt x0 x1 x2 b s) c := by
  funext k
  refine (pay14_apply _ dc b s k).trans ?_
  unfold sChunk scAt scoreRow
  exact Finset.sum_congr rfl fun h _ => by rw [pay3_apply x0 x2 b s h, hd k h]

/-- Chunk c's rows of batch element b. -/
theorem chunk_rows (x1 : Vec Ideal S8x512x768 .f32) (b : Fin 8)
    (c : Fin 4) (dc : Vec Ideal S8x128x768 .f32) (hd : ∀ (k : Fin 128) (h : Fin 768), dc (ix3 b k h) = x1 (ix3 b (chunkIdx c k) h)) :
    (fun (k : Fin 128) (h : Fin 768) => dc (ix3 b k h)) = dChunk (fun (l : Fin 512) (h : Fin 768) => x1 (ix3 b l h)) c :=
  funext fun k => funext fun h => hd k h

theorem stM_row (x0 : Vec Ideal S8x20x128 .f32) (x1 : Vec Ideal S8x512x768 .f32) (x2 : Vec Ideal S128x768 .f32) (b : Fin 8) (s : Fin 20)
    (c : Fin 4) (dc : Vec Ideal S8x128x768 .f32) (hd : ∀ (k : Fin 128) (h : Fin 768), dc (ix3 b k h) = x1 (ix3 b (chunkIdx c k) h))
    (m : Vec Ideal S8x20x1 .f32) (mv : EReal) (hm : m (ix3 b s (0 : Fin 1)) = mv) :
    stM (F := Ideal) (k0_pay3 x0 x2) dc m (ix3 b s (0 : Fin 1)) = stepM (sChunk (scAt x0 x1 x2 b s) c) mv := by
  refine (stM_apply (k0_pay3 x0 x2) dc m b s).trans ?_
  rw [hm]
  exact congrArg (fun f => stepM f mv) (chunk_scores x0 x1 x2 b s c dc hd)

theorem stL_row (x0 : Vec Ideal S8x20x128 .f32) (x1 : Vec Ideal S8x512x768 .f32) (x2 : Vec Ideal S128x768 .f32) (b : Fin 8) (s : Fin 20)
    (c : Fin 4) (dc : Vec Ideal S8x128x768 .f32) (hd : ∀ (k : Fin 128) (h : Fin 768), dc (ix3 b k h) = x1 (ix3 b (chunkIdx c k) h))
    (m l : Vec Ideal S8x20x1 .f32) (mv lv : EReal) (hm : m (ix3 b s (0 : Fin 1)) = mv) (hl : l (ix3 b s (0 : Fin 1)) = lv) :
    stL (F := Ideal) (k0_pay3 x0 x2) dc m l (ix3 b s (0 : Fin 1)) = stepL (sChunk (scAt x0 x1 x2 b s) c) mv lv := by
  refine (stL_apply (k0_pay3 x0 x2) dc m l b s).trans ?_
  rw [hm, hl]
  exact congrArg (fun f => stepL f mv lv) (chunk_scores x0 x1 x2 b s c dc hd)

theorem stA_row (x0 : Vec Ideal S8x20x128 .f32) (x1 : Vec Ideal S8x512x768 .f32) (x2 : Vec Ideal S128x768 .f32) (b : Fin 8) (s : Fin 20)
    (c : Fin 4) (dc : Vec Ideal S8x128x768 .f32) (hd : ∀ (k : Fin 128) (h : Fin 768), dc (ix3 b k h) = x1 (ix3 b (chunkIdx c k) h))
    (m : Vec Ideal S8x20x1 .f32) (a : Vec Ideal S8x20x768 .f32) (mv : EReal) (av : Fin 768 → EReal)
    (hm : m (ix3 b s (0 : Fin 1)) = mv) (ha : ∀ h : Fin 768, a (ix3 b s h) = av h) (h : Fin 768) :
    stA (F := Ideal) (k0_pay3 x0 x2) dc m a (ix3 b s h)
      = stepA (sChunk (scAt x0 x1 x2 b s) c) (dChunk (fun (l : Fin 512) (h : Fin 768) => x1 (ix3 b l h)) c) mv av h := by
  refine (stA_apply (k0_pay3 x0 x2) dc m a b s h).trans ?_
  rw [hm, chunk_rows x1 b c dc hd, show (fun h : Fin 768 => a (ix3 b s h)) = av from funext ha]
  exact congrArg (fun f => stepA f _ mv av h) (chunk_scores x0 x1 x2 b s c dc hd)

section Rows
variable (x0 : Vec Ideal S8x20x128 .f32) (x1 : Vec Ideal S8x512x768 .f32) (x2 : Vec Ideal S128x768 .f32) (b : Fin 8) (s : Fin 20)

theorem bM1_row : bM1 (F := Ideal) x0 x1 x2 (ix3 b s (0 : Fin 1)) = kM1 (scAt x0 x1 x2 b s) := by
  unfold bM1 kM1
  exact stM_row x0 x1 x2 b s 0 (dsub0 x1) (dsub0_apply x1 b) _ ⊥ (pay4_apply _)
theorem bM2_row : bM2 (F := Ideal) x0 x1 x2 (ix3 b s (0 : Fin 1)) = kM2 (scAt x0 x1 x2 b s) := by
  unfold bM2 kM2
  exact stM_row x0 x1 x2 b s 1 (dsub1 x1) (dsub1_apply x1 b) _ _ (bM1_row x0 x1 x2 b s)
theorem bM3_row : bM3 (F := Ideal) x0 x1 x2 (ix3 b s (0 : Fin 1)) = kM3 (scAt x0 x1 x2 b s) := by
  unfold bM3 kM3
  exact stM_row x0 x1 x2 b s 2 (dsub2 x1) (dsub2_apply x1 b) _ _ (bM2_row x0 x1 x2 b s)

theorem bL1_row : bL1 (F := Ideal) x0 x1 x2 (ix3 b s (0 : Fin 1)) = kL1 (scAt x0 x1 x2 b s) := by
  unfold bL1 kL1
  exact stL_row x0 x1 x2 b s 0 (dsub0 x1) (dsub0_apply x1 b) _ _ ⊥ 0 (pay4_apply _) (pay5_apply _)
theorem bL2_row : bL2 (F := Ideal) x0 x1 x2 (ix3 b s (0 : Fin 1)) = kL2 (scAt x0 x1 x2 b s) := by
  unfold bL2 kL2
  exact stL_row x0 x1 x2 b s 1 (dsub1 x1) (dsub1_apply x1 b) _ _ _ _ (bM1_row x0 x1 x2 b s) (bL1_row x0 x1 x2 b s)
theorem bL3_row : bL3 (F := Ideal) x0 x1 x2 (ix3 b s (0 : Fin 1)) = kL3 (scAt x0 x1 x2 b s) := by
  unfold bL3 kL3
  exact stL_row x0 x1 x2 b s 2 (dsub2 x1) (dsub2_apply x1 b) _ _ _ _ (bM2_row x0 x1 x2 b s) (bL2_row x0 x1 x2 b s)
theorem bL4_row : bL4 (F := Ideal) x0 x1 x2 (ix3 b s (0 : Fin 1)) = kL4 (scAt x0 x1 x2 b s) := by
  unfold bL4 kL4
  exact stL_row x0 x1 x2 b s 3 (dsub3 x1) (dsub3_apply x1 b) _ _ _ _ (bM3_row x0 x1 x2 b s) (bL3_row x0 x1 x2 b s)

theorem bA1_row (h : Fin 768) :
    bA1 (F := Ideal) x0 x1 x2 (ix3 b s h) = kA1 (scAt x0 x1 x2 b s) (fun (l : Fin 512) (h : Fin 768) => x1 (ix3 b l h)) h := by
  unfold bA1 kA1
  exact stA_row x0 x1 x2 b s 0 (dsub0 x1) (dsub0_apply x1 b) _ _ ⊥ (fun _ => 0) (pay4_apply _) (fun h => pay6_apply _) h
theorem bA2_row (h : Fin 768) :
    bA2 (F := Ideal) x0 x1 x2 (ix3 b s h) = kA2 (scAt x0 x1 x2 b s) (fun (l : Fin 512) (h : Fin 768) => x1 (ix3 b l h)) h := by
  unfold bA2 kA2
  exact stA_row x0 x1 x2 b s 1 (dsub1 x1) (dsub1_apply x1 b) _ _ _ _ (bM1_row x0 x1 x2 b s) (bA1_row x0 x1 x2 b s) h
theorem bA3_row (h : Fin 768) :
    bA3 (F := Ideal) x0 x1 x2 (ix3 b s h) = kA3 (scAt x0 x1 x2 b s) (fun (l : Fin 512) (h : Fin 768) => x1 (ix3 b l h)) h := by
  unfold bA3 kA3
  exact stA_row x0 x1 x2 b s 2 (dsub2 x1) (dsub2_apply x1 b) _ _ _ _ (bM2_row x0 x1 x2 b s) (bA2_row x0 x1 x2 b s) h
theorem bA4_row (h : Fin 768) :
    bA4 (F := Ideal) x0 x1 x2 (ix3 b s h) = kA4 (scAt x0 x1 x2 b s) (fun (l : Fin 512) (h : Fin 768) => x1 (ix3 b l h)) h := by
  unfold bA4 kA4
  exact stA_row x0 x1 x2 b s 3 (dsub3 x1) (dsub3_apply x1 b) _ _ _ _ (bM3_row x0 x1 x2 b s) (bA3_row x0 x1 x2 b s) h

end Rows

end Blk

/-- Row (b, s), coordinate j of the block a grid point writes. -/
theorem blk_apply (x0 : Vec Ideal S8x20x128 .f32) (x1 : Vec Ideal S8x512x768 .f32) (x2 : Vec Ideal S128x768 .f32)
    (b : Fin 8) (s : Fin 20) (j : Fin 896) :
    blkFn (F := Ideal) x0 x1 x2 (ix3 b s j)
      = outRow kerRow (fun d => x0 (ix3 b s d)) (fun d h => x2 (ix2 d h)) (fun l h => x1 (ix3 b l h)) j := by
  unfold blkFn outRow
  by_cases hj : j.val < 128
  · rw [dif_pos hj]
    refine (Blk.pay1_left _ _ b s j hj).trans ?_
    unfold k0_pay2
    exact congrFun (shapeCast_self x0 shapeCasts_S8x20x128_S8x20x128) _
  · rw [dif_neg hj]
    refine (Blk.pay1_right _ _ b s j (Nat.not_lt.1 hj)).trans ?_
    refine (Blk.pay36_apply _ _ b s _).trans ?_
    rw [Blk.bA4_row x0 x1 x2 b s, Blk.bL4_row x0 x1 x2 b s]
    rfl

end Cert.Attn.Ker

end
-- ==== Proof.KerArray.lean ====
/-
  From blocks to the array: what the attention kernel's output array holds after the run, and the program's result.

  Grid point t works on batch rows 8t … 8t+7: its three input blocks are those rows of the embedding array, the same
  rows of the description array, and the whole projection; its output block is those rows of the output array.  So
  row (B, s) of the output array is the kernel's output row of that row's embedding entries, the projection and batch
  element B's description rows — one function `arrFn` of the arrays, whatever the point.  The 32 blocks tile the
  array, so after the run the array IS `arrFn`, and the program's result is its reshape to [256, 17920].
-/
import proofs.«425159_j37976100831406_2_alg».proof.Proof.KerBlock
import Idealize.ShloMosaic.Lib.Pipeline.Value
import Idealize.ShloMosaic.Lib.StableHlo.Run

set_option maxRecDepth 16384

noncomputable section

namespace Cert.Attn.Ker

open Idealize.ShloMosaic Idealize.ShloMosaic.TcCoe Idealize.ShloMosaic.ValueIdx Idealize.ShloMosaic.Tactic
open Idealize.SL Idealize.SL.Sem
open Idealize.ShloMosaic.Pipeline (Dat Cfg Window)
open Cert.KernelIdeal Cert.KernelIdeal.Gen Cert.Attn

variable (m : (ℓ : Loc nD τ sig) → Buf (Elt Ideal) ℓ) (ρ : Dev nD → PrngReg)

/-- The output array as one function of the embedding array, the description array and the projection. -/
def arrFn (SE : S256x20x128.Idx → EReal) (D : S256x512x768.Idx → EReal) (W : S128x768.Idx → EReal) : S256x20x896.Idx → EReal :=
  fun i => outRow kerRow (fun d => SE (ix3 (⟨(i 0).val, (i 0).isLt⟩ : Fin 256) (⟨(i 1).val, (i 1).isLt⟩ : Fin 20) d))
    (fun d h => W (ix2 d h))
    (fun l h => D (ix3 (⟨(i 0).val, (i 0).isLt⟩ : Fin 256) l h))
    (⟨(i 2).val, (i 2).isLt⟩ : Fin 896)

/-- The windows' block indices, decided over the grid: the two batched inputs move with the output along the batch
    axis and sit at block 0 on the others; the projection's one block is block (0, 0). -/
theorem idx_facts : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (1 : Fin 3) = 0 ∧ win0_3.index t (2 : Fin 3) = 0 ∧ win0_3.index t (0 : Fin 3) ≤ 31 :=
  (by decide +kernel : ∀ t : Fin grid0.N, _)

/-- Every batch block is some point's. -/
theorem idx_onto : ∀ q0 : Fin 32, ∃ t : Fin cfg0.N, win0_3.index t = ![q0.val, 0, 0] :=
  (by decide +kernel : ∀ q0 : Fin 32, ∃ t : Fin grid0.N, win0_3.index t = ![q0.val, 0, 0])

/-- The point's input blocks, at their literal types. -/
abbrev xb0 (c : Dev nD) (t : Fin cfg0.N) : Vec Ideal S8x20x128 .f32 := iblk m c 0 t
abbrev xb1 (c : Dev nD) (t : Fin cfg0.N) : Vec Ideal S8x512x768 .f32 := iblk m c 1 t
abbrev xb2 (c : Dev nD) (t : Fin cfg0.N) : Vec Ideal S128x768 .f32 := iblk m c 2 t

/-- WHAT POINT t WRITES BACK is block t of `arrFn` of the arrays as the region finds them. -/
theorem flushed_eq (c : Dev nD) (t : Fin cfg0.N) :
    (dats m 0 c).flushed 3 t = ((cfg0.win 3).blk t).view.read (Elt Ideal) (arrFn (V m c main_v0) (V m c main_arg1) (V m c main_arg3)) := by
  show (cfg0.win 3).cut (grid0.coords t) ((dats m 0 c).after 3 t) = _
  rw [after0_3]
  unfold outsAt0
  rw [out_piece]
  funext y
  obtain ⟨b, s, j, rfl⟩ : ∃ (b : Fin 8) (s : Fin 20) (j : Fin 896), y = ix3 b s j := ⟨y 0, y 1, y 2, eq_ix3 y⟩
  show blkFn (F := Ideal) (xb0 m c t) (xb1 m c t) (xb2 m c t) (ix3 b s j)
    = arrFn (V m c main_v0) (V m c main_arg1) (V m c main_arg3) (((cfg0.win 3).blk t).view.emb (ix3 b s j))
  refine (blk_apply (xb0 m c t) (xb1 m c t) (xb2 m c t) b s j).trans ?_
  obtain ⟨e00, e01, e02, e10, e11, e12, e20, e21, e31, e32, e3le⟩ := idx_facts t
  unfold arrFn
  have hb : b.val < 8 := b.isLt
  have hs : s.val < 20 := s.isLt
  have hj : j.val < 896 := j.isLt
  -- the embedding rows: block row b is array row (block index) * 8 + b
  have hA : (fun d : Fin 128 => xb0 m c t (ix3 b s d))
      = fun d : Fin 128 => V m c main_v0 (ix3 (⟨((((cfg0.win 3).blk t).view.emb (ix3 b s j)) 0).val, ((((cfg0.win 3).blk t).view.emb (ix3 b s j)) 0).isLt⟩ : Fin 256)
          (⟨((((cfg0.win 3).blk t).view.emb (ix3 b s j)) 1).val, ((((cfg0.win 3).blk t).view.emb (ix3 b s j)) 1).isLt⟩ : Fin 20) d) := by
    funext d
    show V m c main_v0 (((cfg0.win 0).blk t).view.emb (ix3 b s d)) = V m c main_v0 _
    refine congrArg (V m c main_v0) (funext fun a => Fin.ext ?_)
    have hd : d.val < 128 := d.isLt
    match a with
    | ⟨0, _⟩ => show win0_0.index t (0 : Fin 3) * 8 + 1 * b.val = win0_3.index t (0 : Fin 3) * 8 + 1 * b.val; omega
    | ⟨1, _⟩ => show win0_0.index t (1 : Fin 3) * 20 + 1 * s.val = win0_3.index t (1 : Fin 3) * 20 + 1 * s.val; omega
    | ⟨2, _⟩ => show win0_0.index t (2 : Fin 3) * 128 + 1 * d.val = d.val; omega
  -- the projection: its one block is the whole array
  have hB : (fun (d : Fin 128) (h : Fin 768) => xb2 m c t (ix2 d h)) = fun (d : Fin 128) (h : Fin 768) => V m c main_arg3 (ix2 d h) := by
    funext d h
    show V m c main_arg3 (((cfg0.win 2).blk t).view.emb (ix2 d h)) = V m c main_arg3 _
    refine congrArg (V m c main_arg3) (funext fun a => Fin.ext ?_)
    have hd : d.val < 128 := d.isLt
    have hh : h.val < 768 := h.isLt
    match a with
    | ⟨0, _⟩ => show win0_2.index t (0 : Fin 2) * 128 + 1 * d.val = d.val; omega
    | ⟨1, _⟩ => show win0_2.index t (1 : Fin 2) * 768 + 1 * h.val = h.val; omega
  -- the description rows of the same batch rows
  have hC : (fun (l : Fin 512) (h : Fin 768) => xb1 m c t (ix3 b l h))
      = fun (l : Fin 512) (h : Fin 768) => V m c main_arg1 (ix3 (⟨((((cfg0.win 3).blk t).view.emb (ix3 b s j)) 0).val, ((((cfg0.win 3).blk t).view.emb (ix3 b s j)) 0).isLt⟩ : Fin 256) l h) := by
    funext l h
    show V m c main_arg1 (((cfg0.win 1).blk t).view.emb (ix3 b l h)) = V m c main_arg1 _
    refine congrArg (V m c main_arg1) (funext fun a => Fin.ext ?_)
    have hl : l.val < 512 := l.isLt
    have hh : h.val < 768 := h.isLt
    match a with
    | ⟨0, _⟩ => show win0_1.index t (0 : Fin 3) * 8 + 1 * b.val = win0_3.index t (0 : Fin 3) * 8 + 1 * b.val; omega
    | ⟨1, _⟩ => show win0_1.index t (1 : Fin 3) * 512 + 1 * l.val = l.val; omega
    | ⟨2, _⟩ => show win0_1.index t (2 : Fin 3) * 768 + 1 * h.val = h.val; omega
  have hD : j = (⟨((((cfg0.win 3).blk t).view.emb (ix3 b s j)) 2).val, ((((cfg0.win 3).blk t).view.emb (ix3 b s j)) 2).isLt⟩ : Fin 896) := by
    apply Fin.ext
    show j.val = win0_3.index t (2 : Fin 3) * 896 + 1 * j.val
    omega
  exact congr (congr (congr (congrArg (outRow kerRow) hA) hB) hC) hD

/-- An index of the output array is in point t's block iff each coordinate is in the block's range on its axis. -/
theorem mem_blk (t : Fin cfg0.N) (i : S256x20x896.Idx) :
    i ∈ ((cfg0.win 3).blk t).view.set ↔ ∀ a : Fin 3, win0_3.index t a * S8x20x896.size a ≤ (i a).val ∧ (i a).val < win0_3.index t a * S8x20x896.size a + S8x20x896.size a := by
  show i ∈ ((View.whole main_v1).slice (win0_3.rect t)).set ↔ _
  rw [View.set_slice_whole, Rect.mem_set_unit]
  exact Iff.rfl

/-- The 32 blocks tile the output array: batch row B is in the block of point B / 8. -/
theorem cover (i : S256x20x896.Idx) : ∃ t : Fin cfg0.N, (cfg0.win 3).flush t = true ∧ i ∈ ((cfg0.win 3).blk t).view.set := by
  have hi0 : (i 0).val < 256 := (i 0).isLt
  have hi1 : (i 1).val < 20 := (i 1).isLt
  have hi2 : (i 2).val < 896 := (i 2).isLt
  obtain ⟨t, ht⟩ := idx_onto ⟨(i 0).val / 8, by omega⟩
  have q0 : win0_3.index t (0 : Fin 3) = (i 0).val / 8 := congrFun ht 0
  have q1 : win0_3.index t (1 : Fin 3) = 0 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 8 ≤ (i 0).val ∧ (i 0).val < win0_3.index t (0 : Fin 3) * 8 + 8; omega
  | ⟨1, _⟩ => show win0_3.index t (1 : Fin 3) * 20 ≤ (i 1).val ∧ (i 1).val < win0_3.index t (1 : Fin 3) * 20 + 20; omega
  | ⟨2, _⟩ => show win0_3.index t (2 : Fin 3) * 896 ≤ (i 2).val ∧ (i 2).val < win0_3.index t (2 : Fin 3) * 896 + 896; omega

/-- THE ARRAY after the run is `arrFn` of the arrays as the region finds them. -/
theorem final (c : Dev nD) :
    (dats m 0 c).arrAt 3 cfg0.N = arrFn (V m c main_v0) (V m c main_arg1) (V m c main_arg3) :=
  (dats m 0 c).arrAt_eq_of_cover 3 _ (fun t _ => flushed_eq m c t) cover

/-- The program's result: the reshape of the output array. -/
theorem tail_eq (c : Dev nD) :
    Pipeline.afterTail₀ cfgs (dats m) 0 (V0 m) [hostOps1] c main_v2
      = shapeCast S256x17920 (arrFn (V m c main_v0) (V m c main_arg1) (V m c main_arg3)) shapeCasts_S256x20x896_S256x17920 := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.tc.devRef main_v1)
      = arrFn (V m c main_v0) (V m c main_arg1) (V m c main_arg3) :=
    (Pipeline.withArrays_arr spec0 launch0.win.arr_inj c _ _ 3).trans (final m c)
  funext i
  show shapeCast S256x17920 (Pipeline.withArrays (cfgs 0).spec c (V0 m c) (fun w => (dats m 0 c).arrAt w (cfgs 0).N) (Proc.tc.devRef main_v1))
      shapeCasts_S256x20x896_S256x17920 i = _
  rw [hw]

/-- THE RUN, READ: every weakly fair execution of the program ends with its result at the reshape of `arrFn` of the
    embedding array as the region finds it and of the launch contents of the description array and the projection,
    and with the four arguments unchanged. -/
theorem run : θ_run defs (onTc (τ := τ) (main (F := Ideal))) ⟨m, fun _ => 0, ρ⟩ (fun r => ∀ c : Dev nD,
      r.2.mem ((c.tc : Thread nD τ).loc main_v2)
        = shapeCast S256x17920 (arrFn (V m c main_v0) (m ((c.tc : Thread nD τ).loc main_arg1)) (m ((c.tc : Thread nD τ).loc main_arg3))) shapeCasts_S256x20x896_S256x17920
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v2 (Pipeline.mem_restRefs_of main_v2 (by decide) (by decide))).trans
        ((tail_eq m c).trans (by rw [V_main_arg1, V_main_arg3])),
      (((h c).2 main_arg0 (Pipeline.mem_restRefs_of main_arg0 (by decide) (by decide))).trans (W_main_arg0 m (dats m) c)),
      ((h c).1 1).trans ((((dats m) 0 c).arrAt_in 1 rfl _).trans ((A_eq m c 1).trans (V_main_arg1 m c))),
      (((h c).2 main_arg2 (Pipeline.mem_restRefs_of main_arg2 (by decide) (by decide))).trans (W_main_arg2 m (dats m) c)),
      ((h c).1 2).trans ((((dats m) 0 c).arrAt_in 2 rfl _).trans ((A_eq m c 2).trans (V_main_arg3 m c)))⟩)
    (run_main m ρ)

end Cert.Attn.Ker

end
-- ==== Proof.Softmax.lean ====
/-
  The online softmax over four chunks equals the one-pass softmax, on the extended reals with real inputs.

  With real inputs every score is a real number, so every running maximum after a nonempty chunk is a real
  number too.  For real shifts m and m' one has exp (m - m') * ∑ exp (s k - m) x k = ∑ exp (s k - m') x k, so
  after the four chunks the running denominator is ∑ l, exp (sc l - m4) and the running numerator is
  ∑ l, exp (sc l - m4) * D l h over all 512 tokens, whatever the real number m4 is.  Their quotient does not
  depend on the shift: exp (sc l - m4) = exp (M - m4) * exp (sc l - M), and the common factor cancels because the
  sums of exponentials are positive.
-/
import proofs.«425159_j37976100831406_2_alg».proof.Proof.Row
import Mathlib.Data.EReal.Inv
import Mathlib.Analysis.SpecialFunctions.Exp
import Mathlib.Algebra.BigOperators.Fin
import Mathlib.Data.Fintype.BigOperators
import Mathlib.Logic.Equiv.Fin.Basic

noncomputable section

open scoped BigOperators

namespace Cert.Attn

open Idealize.ShloMosaic

/-! ## Coercions -/

/-- A finite sum of coerced reals is the coercion of the real sum. -/
theorem coe_sum {ι : Type*} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The maximum of two coerced reals is the coercion of the real maximum. -/
theorem coe_max' (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- The real query row. -/
def qR (e : Fin 128 → ℝ) (W : Fin 128 → Fin 768 → ℝ) (h : Fin 768) : ℝ := ∑ d : Fin 128, e d * W d h

/-- The real scores. -/
def scR (e : Fin 128 → ℝ) (W : Fin 128 → Fin 768 → ℝ) (D : Fin 512 → Fin 768 → ℝ) (l : Fin 512) : ℝ :=
  ∑ h : Fin 768, qR e W h * D l h

theorem qRow_coe (e : Fin 128 → ℝ) (W : Fin 128 → Fin 768 → ℝ) (h : Fin 768) :
    qRow (fun d => (e d : EReal)) (fun d h => (W d h : EReal)) h = (qR e W h : EReal) := by
  unfold qRow qR
  rw [← coe_sum]
  exact Finset.sum_congr rfl fun d _ => (EReal.coe_mul _ _).symm

/-- With real inputs every score is a real number. -/
theorem scoreRow_coe (e : Fin 128 → ℝ) (W : Fin 128 → Fin 768 → ℝ) (D : Fin 512 → Fin 768 → ℝ) (l : Fin 512) :
    scoreRow (qRow (fun d => (e d : EReal)) (fun d h => (W d h : EReal))) (fun l h => (D l h : EReal)) l
      = (scR e W D l : EReal) := by
  unfold scoreRow scR
  rw [← coe_sum]
  refine Finset.sum_congr rfl fun h _ => ?_
  rw [qRow_coe, EReal.coe_mul]

theorem scoreRow_coe_fun (e : Fin 128 → ℝ) (W : Fin 128 → Fin 768 → ℝ) (D : Fin 512 → Fin 768 → ℝ) :
    scoreRow (qRow (fun d => (e d : EReal)) (fun d h => (W d h : EReal))) (fun l h => (D l h : EReal))
      = fun l => (scR e W D l : EReal) :=
  funext fun l => scoreRow_coe e W D l

/-! ## Running maxima are real -/

/-- The fold of max from ⊥ over coerced reals is ⊥ on the empty set and a real number otherwise. -/
theorem fold_max_coe {ι : Type*} (s : Finset ι) (f : ι → ℝ) :
    (s = ∅ ∧ s.fold max ⊥ (fun i => (f i : EReal)) = ⊥) ∨ ∃ r : ℝ, s.fold max ⊥ (fun i => (f i : EReal)) = (r : EReal) := by
  classical
  induction s using Finset.induction_on with
  | empty => exact Or.inl ⟨rfl, Finset.fold_empty⟩
  | insert a s ha ih =>
    right
    rw [Finset.fold_insert ha]
    rcases ih with ⟨-, h⟩ | ⟨r, h⟩
    · exact ⟨f a, by rw [h, max_eq_left bot_le]⟩
    · exact ⟨max (f a) r, by rw [h, coe_max']⟩

/-- The maximum of a nonempty family of reals is a real number. -/
theorem rowMax_coe {n : Nat} (s : Fin (n + 1) → ℝ) : ∃ r : ℝ, rowMax (fun k => (s k : EReal)) = (r : EReal) := by
  rcases fold_max_coe (Finset.univ : Finset (Fin (n + 1))) s with ⟨h, -⟩ | h
  · exact absurd h Finset.univ_nonempty.ne_empty
  · exact h

theorem stepM_bot_coe (s : Fin 128 → ℝ) : ∃ r : ℝ, stepM (fun k => (s k : EReal)) ⊥ = (r : EReal) := by
  obtain ⟨r, hr⟩ := rowMax_coe (n := 127) s
  exact ⟨r, by rw [stepM, hr, max_eq_right bot_le]⟩

theorem stepM_coe_coe (s : Fin 128 → ℝ) (m : ℝ) : ∃ r : ℝ, stepM (fun k => (s k : EReal)) (m : EReal) = (r : EReal) := by
  obtain ⟨r, hr⟩ := rowMax_coe (n := 127) s
  exact ⟨max m r, by rw [stepM, hr, coe_max']⟩

theorem refMax_coe (sc : Fin 512 → ℝ) : ∃ r : ℝ, refMax (fun l => (sc l : EReal)) = (r : EReal) := by
  obtain ⟨r, hr⟩ := rowMax_coe (n := 511) sc
  exact ⟨r, by rw [refMax, hr, max_eq_right bot_le]⟩

/-! ## The rescaling identity, on the reals -/

/-- The weighted sum of the exponentials of a family at shift m. -/
def E {n : Nat} (x w : Fin n → ℝ) (m : ℝ) : ℝ := ∑ k : Fin n, Real.exp (x k - m) * w k

/-- Moving the shift from m to m' multiplies the weighted sum by exp (m - m'). -/
theorem rescale {n : Nat} (x w : Fin n → ℝ) (m m' : ℝ) : Real.exp (m - m') * E x w m = E x w m' := by
  unfold E
  rw [Finset.mul_sum]
  refine Finset.sum_congr rfl fun k _ => ?_
  rw [← mul_assoc, ← Real.exp_add]
  congr 2
  ring

/-- Four rescaled steps leave the four chunk sums at the last shift. -/
theorem chain (s0 s1 s2 s3 w0 w1 w2 w3 : Fin 128 → ℝ) (m1 m2 m3 m4 : ℝ) :
    Real.exp (m3 - m4) * (Real.exp (m2 - m3) * (Real.exp (m1 - m2) * E s0 w0 m1 + E s1 w1 m2) + E s2 w2 m3)
        + E s3 w3 m4
      = E s0 w0 m4 + E s1 w1 m4 + E s2 w2 m4 + E s3 w3 m4 := by
  have e1 : Real.exp (m1 - m2) * E s0 w0 m1 = E s0 w0 m2 := rescale _ _ _ _
  have e2 : Real.exp (m2 - m3) * (E s0 w0 m2 + E s1 w1 m2) = E s0 w0 m3 + E s1 w1 m3 := by
    rw [mul_add, rescale, rescale]
  have e3 : Real.exp (m3 - m4) * (E s0 w0 m3 + E s1 w1 m3 + E s2 w2 m3)
      = E s0 w0 m4 + E s1 w1 m4 + E s2 w2 m4 := by
    rw [mul_add, mul_add, rescale, rescale, rescale]
  rw [e1, e2, e3]

/-! ## One chunk's step, with real data -/

theorem exp_sub_coe (a b : ℝ) : Ideal.exp ((a : EReal) - (b : EReal)) = (Real.exp (a - b) : EReal) := by
  rw [← EReal.coe_sub, Ideal.exp_coe]

theorem exp_bot_sub (x : EReal) : Ideal.exp (⊥ - x) = 0 := by
  rw [EReal.bot_sub, Ideal.exp_bot]

theorem chunk_sum_coe {n : Nat} (s w : Fin n → ℝ) (m : ℝ) :
    ∑ k : Fin n, Ideal.exp ((s k : EReal) - (m : EReal)) * (w k : EReal) = (E s w m : EReal) := by
  unfold E
  rw [← coe_sum]
  refine Finset.sum_congr rfl fun k _ => ?_
  rw [exp_sub_coe, EReal.coe_mul]

theorem chunk_sum_coe_one {n : Nat} (s : Fin n → ℝ) (m : ℝ) :
    ∑ k : Fin n, Ideal.exp ((s k : EReal) - (m : EReal)) = (E s (fun _ => 1) m : EReal) := by
  unfold E
  rw [← coe_sum]
  refine Finset.sum_congr rfl fun k _ => ?_
  rw [exp_sub_coe, mul_one]

theorem stepL_bot (s : Fin 128 → ℝ) (m' : ℝ) (hm : stepM (fun k => (s k : EReal)) ⊥ = (m' : EReal)) :
    stepL (fun k => (s k : EReal)) ⊥ 0 = (E s (fun _ => 1) m' : EReal) := by
  rw [stepL, hm, exp_bot_sub, zero_mul, zero_add, chunk_sum_coe_one]

theorem stepL_coe (s : Fin 128 → ℝ) (m m' l : ℝ)
    (hm : stepM (fun k => (s k : EReal)) (m : EReal) = (m' : EReal)) :
    stepL (fun k => (s k : EReal)) (m : EReal) (l : EReal)
      = ((Real.exp (m - m') * l + E s (fun _ => 1) m' : ℝ) : EReal) := by
  rw [stepL, hm, exp_sub_coe, chunk_sum_coe_one, EReal.coe_add, EReal.coe_mul]

theorem stepA_bot (s : Fin 128 → ℝ) (Dc : Fin 128 → Fin 768 → ℝ) (m' : ℝ) (h : Fin 768)
    (hm : stepM (fun k => (s k : EReal)) ⊥ = (m' : EReal)) :
    stepA (fun k => (s k : EReal)) (fun k h => (Dc k h : EReal)) ⊥ (fun _ => 0) h
      = (E s (fun k => Dc k h) m' : EReal) := by
  rw [stepA, hm, exp_bot_sub, zero_mul, zero_add, chunk_sum_coe s (fun k => Dc k h) m']

theorem stepA_coe (s : Fin 128 → ℝ) (Dc : Fin 128 → Fin 768 → ℝ) (m m' : ℝ) (acc : Fin 768 → ℝ) (h : Fin 768)
    (hm : stepM (fun k => (s k : EReal)) (m : EReal) = (m' : EReal)) :
    stepA (fun k => (s k : EReal)) (fun k h => (Dc k h : EReal)) (m : EReal) (fun h => (acc h : EReal)) h
      = ((Real.exp (m - m') * acc h + E s (fun k => Dc k h) m' : ℝ) : EReal) := by
  rw [stepA, hm, exp_sub_coe, chunk_sum_coe s (fun k => Dc k h) m', EReal.coe_add, EReal.coe_mul]

/-! ## The four chunks -/

/-- The real scores of chunk c. -/
def chS (sc : Fin 512 → ℝ) (c : Fin 4) (k : Fin 128) : ℝ := sc (chunkIdx c k)

/-- The real description rows of chunk c. -/
def chD (D : Fin 512 → Fin 768 → ℝ) (c : Fin 4) (k : Fin 128) (h : Fin 768) : ℝ := D (chunkIdx c k) h

/-- The four running maxima are the real numbers m1, m2, m3, m4. -/
structure Shifts (sc : Fin 512 → ℝ) (m1 m2 m3 m4 : ℝ) : Prop where
  h1 : stepM (fun k => (chS sc 0 k : EReal)) ⊥ = (m1 : EReal)
  h2 : stepM (fun k => (chS sc 1 k : EReal)) (m1 : EReal) = (m2 : EReal)
  h3 : stepM (fun k => (chS sc 2 k : EReal)) (m2 : EReal) = (m3 : EReal)
  h4 : stepM (fun k => (chS sc 3 k : EReal)) (m3 : EReal) = (m4 : EReal)

theorem shifts_exist (sc : Fin 512 → ℝ) : ∃ m1 m2 m3 m4 : ℝ, Shifts sc m1 m2 m3 m4 := by
  obtain ⟨m1, h1⟩ := stepM_bot_coe (chS sc 0)
  obtain ⟨m2, h2⟩ := stepM_coe_coe (chS sc 1) m1
  obtain ⟨m3, h3⟩ := stepM_coe_coe (chS sc 2) m2
  obtain ⟨m4, h4⟩ := stepM_coe_coe (chS sc 3) m3
  exact ⟨m1, m2, m3, m4, ⟨h1, h2, h3, h4⟩⟩

section Chunks

variable {sc : Fin 512 → ℝ} {m1 m2 m3 m4 : ℝ} (H : Shifts sc m1 m2 m3 m4)
include H

theorem kM1_eq : kM1 (fun l => (sc l : EReal)) = (m1 : EReal) := H.h1

theorem kM2_eq : kM2 (fun l => (sc l : EReal)) = (m2 : EReal) := by
  rw [kM2, kM1_eq H]; exact H.h2

theorem kM3_eq : kM3 (fun l => (sc l : EReal)) = (m3 : EReal) := by
  rw [kM3, kM2_eq H]; exact H.h3

theorem kL1_eq : kL1 (fun l => (sc l : EReal)) = (E (chS sc 0) (fun _ => 1) m1 : EReal) :=
  stepL_bot (chS sc 0) m1 H.h1

theorem kL2_eq : kL2 (fun l => (sc l : EReal))
    = ((Real.exp (m1 - m2) * E (chS sc 0) (fun _ => 1) m1 + E (chS sc 1) (fun _ => 1) m2 : ℝ) : EReal) := by
  rw [kL2, kM1_eq H, kL1_eq H]; exact stepL_coe (chS sc 1) m1 m2 _ H.h2

theorem kL3_eq : kL3 (fun l => (sc l : EReal))
    = ((Real.exp (m2 - m3) * (Real.exp (m1 - m2) * E (chS sc 0) (fun _ => 1) m1 + E (chS sc 1) (fun _ => 1) m2)
        + E (chS sc 2) (fun _ => 1) m3 : ℝ) : EReal) := by
  rw [kL3, kM2_eq H, kL2_eq H]; exact stepL_coe (chS sc 2) m2 m3 _ H.h3

/-- After the four chunks the denominator is the sum of the four chunk sums at the last shift. -/
theorem kL4_eq : kL4 (fun l => (sc l : EReal))
    = ((E (chS sc 0) (fun _ => 1) m4 + E (chS sc 1) (fun _ => 1) m4 + E (chS sc 2) (fun _ => 1) m4
        + E (chS sc 3) (fun _ => 1) m4 : ℝ) : EReal) := by
  rw [kL4, kM3_eq H, kL3_eq H, ← chain]; exact stepL_coe (chS sc 3) m3 m4 _ H.h4

variable (D : Fin 512 → Fin 768 → ℝ)

theorem kA1_eq : kA1 (fun l => (sc l : EReal)) (fun l h => (D l h : EReal))
    = fun h => (E (chS sc 0) (fun k => chD D 0 k h) m1 : EReal) :=
  funext fun h => stepA_bot (chS sc 0) (chD D 0) m1 h H.h1

theorem kA2_eq : kA2 (fun l => (sc l : EReal)) (fun l h => (D l h : EReal))
    = fun h => ((Real.exp (m1 - m2) * E (chS sc 0) (fun k => chD D 0 k h) m1
        + E (chS sc 1) (fun k => chD D 1 k h) m2 : ℝ) : EReal) := by
  rw [kA2, kM1_eq H, kA1_eq H D]
  exact funext fun h => stepA_coe (chS sc 1) (chD D 1) m1 m2 _ h H.h2

theorem kA3_eq : kA3 (fun l => (sc l : EReal)) (fun l h => (D l h : EReal))
    = fun h => ((Real.exp (m2 - m3) * (Real.exp (m1 - m2) * E (chS sc 0) (fun k => chD D 0 k h) m1
        + E (chS sc 1) (fun k => chD D 1 k h) m2) + E (chS sc 2) (fun k => chD D 2 k h) m3 : ℝ) : EReal) := by
  rw [kA3, kM2_eq H, kA2_eq H D]
  exact funext fun h => stepA_coe (chS sc 2) (chD D 2) m2 m3 _ h H.h3

/-- After the four chunks the numerator is the sum of the four weighted chunk sums at the last shift. -/
theorem kA4_eq (h : Fin 768) : kA4 (fun l => (sc l : EReal)) (fun l h => (D l h : EReal)) h
    = ((E (chS sc 0) (fun k => chD D 0 k h) m4 + E (chS sc 1) (fun k => chD D 1 k h) m4
        + E (chS sc 2) (fun k => chD D 2 k h) m4 + E (chS sc 3) (fun k => chD D 3 k h) m4 : ℝ) : EReal) := by
  rw [kA4, kM3_eq H, kA3_eq H D, ← chain]
  exact stepA_coe (chS sc 3) (chD D 3) m3 m4 _ h H.h4

end Chunks

/-! ## From the four chunks to all 512 tokens -/

theorem chunkIdx_eq (p : Fin 4 × Fin 128) : chunkIdx p.1 p.2 = finProdFinEquiv p := by
  apply Fin.ext
  rw [finProdFinEquiv_apply_val]
  simp only [chunkIdx]
  omega

/-- A sum over the 512 tokens is the sum of the four chunk sums. -/
theorem sum_chunks (f : Fin 512 → ℝ) :
    ∑ l : Fin 512, f l
      = ∑ k : Fin 128, f (chunkIdx 0 k) + ∑ k : Fin 128, f (chunkIdx 1 k) + ∑ k : Fin 128, f (chunkIdx 2 k)
        + ∑ k : Fin 128, f (chunkIdx 3 k) := by
  have h := Fintype.sum_equiv (finProdFinEquiv (m := 4) (n := 128)) (fun p => f (chunkIdx p.1 p.2)) f
    (fun p => by rw [chunkIdx_eq])
  rw [← h, Fintype.sum_prod_type, Fin.sum_univ_four]

/-- The four weighted chunk sums at one shift make the weighted sum over all tokens. -/
theorem E_chunks (sc w : Fin 512 → ℝ) (m : ℝ) :
    E (chS sc 0) (fun k => w (chunkIdx 0 k)) m + E (chS sc 1) (fun k => w (chunkIdx 1 k)) m
        + E (chS sc 2) (fun k => w (chunkIdx 2 k)) m + E (chS sc 3) (fun k => w (chunkIdx 3 k)) m
      = E sc w m := by
  unfold E
  rw [sum_chunks (fun l => Real.exp (sc l - m) * w l)]
  rfl

/-- A weighted sum of exponentials with positive weights one is positive. -/
theorem E_one_pos {n : Nat} (x : Fin (n + 1) → ℝ) (m : ℝ) : 0 < E x (fun _ => 1) m := by
  unfold E
  exact Finset.sum_pos (fun k _ => by positivity) Finset.univ_nonempty

/-! ## The kernel's row and the reference's row as real quotients -/

/-- The kernel's row is the quotient of the two sums over all tokens, at some real shift. -/
theorem kerRow_coe (sc : Fin 512 → ℝ) (D : Fin 512 → Fin 768 → ℝ) :
    ∃ m : ℝ, ∀ h : Fin 768, kerRow (fun l => (sc l : EReal)) (fun l h => (D l h : EReal)) h
      = ((E sc (fun l => D l h) m * (1 / E sc (fun _ => 1) m) : ℝ) : EReal) := by
  obtain ⟨m1, m2, m3, m4, H⟩ := shifts_exist sc
  refine ⟨m4, fun h => ?_⟩
  have hL := E_chunks sc (fun _ => 1) m4
  have hA := E_chunks sc (fun l => D l h) m4
  have hpos : E sc (fun _ => 1) m4 ≠ 0 := (E_one_pos (n := 511) sc m4).ne'
  rw [kerRow, kA4_eq H D h, kL4_eq H]
  rw [show (E (chS sc 0) (fun _ => 1) m4 + E (chS sc 1) (fun _ => 1) m4 + E (chS sc 2) (fun _ => 1) m4
        + E (chS sc 3) (fun _ => 1) m4) = E sc (fun _ => 1) m4 from hL]
  rw [show (E (chS sc 0) (fun k => chD D 0 k h) m4 + E (chS sc 1) (fun k => chD D 1 k h) m4
        + E (chS sc 2) (fun k => chD D 2 k h) m4 + E (chS sc 3) (fun k => chD D 3 k h) m4)
        = E sc (fun l => D l h) m4 from hA]
  rw [Ideal.div_coe hpos, ← EReal.coe_mul]

/-- The reference's row is the same quotient at its own real shift. -/
theorem refRow_coe (sc : Fin 512 → ℝ) (D : Fin 512 → Fin 768 → ℝ) :
    ∃ M : ℝ, ∀ h : Fin 768, refRow (fun l => (sc l : EReal)) (fun l h => (D l h : EReal)) h
      = ((E sc (fun l => D l h) M * (1 / E sc (fun _ => 1) M) : ℝ) : EReal) := by
  obtain ⟨M, hM⟩ := refMax_coe sc
  refine ⟨M, fun h => ?_⟩
  have hpos : E sc (fun _ => 1) M ≠ 0 := (E_one_pos (n := 511) sc M).ne'
  have hZ : refZ (fun l => (sc l : EReal)) = (E sc (fun _ => 1) M : EReal) := by
    rw [refZ, hM, zero_add, chunk_sum_coe_one]
  have hsum : E sc (fun l => D l h) M * (1 / E sc (fun _ => 1) M)
      = ∑ l : Fin 512, Real.exp (sc l - M) * (1 / E sc (fun _ => 1) M) * D l h := by
    rw [E, Finset.sum_mul]
    exact Finset.sum_congr rfl fun l _ => by ring
  rw [refRow, hM, hZ, hsum, ← coe_sum]
  refine Finset.sum_congr rfl fun l _ => ?_
  rw [exp_sub_coe, Ideal.div_coe hpos, ← EReal.coe_mul, ← EReal.coe_mul]

/-! ## The quotient does not depend on the shift -/

theorem quotient_shift (sc w : Fin 512 → ℝ) (m M : ℝ) :
    E sc w m * (1 / E sc (fun _ => 1) m) = E sc w M * (1 / E sc (fun _ => 1) M) := by
  have hm : E sc (fun _ => 1) m ≠ 0 := (E_one_pos (n := 511) sc m).ne'
  have hM : E sc (fun _ => 1) M ≠ 0 := (E_one_pos (n := 511) sc M).ne'
  rw [← rescale sc w M m, ← rescale sc (fun _ => 1) M m]
  have he : Real.exp (M - m) ≠ 0 := (Real.exp_pos _).ne'
  field_simp

/-- The kernel's online softmax row equals the reference's softmax row, for real scores and real descriptions. -/
theorem kerRow_eq_refRow (sc : Fin 512 → ℝ) (D : Fin 512 → Fin 768 → ℝ) (h : Fin 768) :
    kerRow (fun l => (sc l : EReal)) (fun l h => (D l h : EReal)) h
      = refRow (fun l => (sc l : EReal)) (fun l h => (D l h : EReal)) h := by
  obtain ⟨m, hk⟩ := kerRow_coe sc D
  obtain ⟨M, hr⟩ := refRow_coe sc D
  rw [hk h, hr h, quotient_shift sc (fun l => D l h) m M]

/-- With real inputs the kernel's output row equals the reference's output row. -/
theorem outRow_ker_eq_ref (e : Fin 128 → ℝ) (W : Fin 128 → Fin 768 → ℝ) (D : Fin 512 → Fin 768 → ℝ) (j : Fin 896) :
    outRow kerRow (fun d => (e d : EReal)) (fun d h => (W d h : EReal)) (fun l h => (D l h : EReal)) j
      = outRow refRow (fun d => (e d : EReal)) (fun d h => (W d h : EReal)) (fun l h => (D l h : EReal)) j := by
  unfold outRow
  split
  · rfl
  · rw [scoreRow_coe_fun]
    exact kerRow_eq_refRow (scR e W D) D _

end Cert.Attn

end
-- ==== Proof.RefRow.lean ====
/-
  The reference program's concatenated result, read at one index (batch B, skill s, coordinate j of the
  896-wide row), is the output row computed the reference's way: the first 128 coordinates are the
  embedding row, the other 768 the attention output `refRow` of the row's scores.

  Each stage of the program is read at an index built from coordinates: the projection is `qRow`, the batched score
  product is `scoreRow`, the maximum over the 512 tokens is `rowMax` (a fold of `max` from `⊥`), joined once more with `⊥`
  it is `refMax`, the sum of the shifted exponentials from `0` is `refZ`, and the batched product of the normalised
  weights with the description rows is `refRow`.
-/
import proofs.«425159_j37976100831406_2_alg».proof.Proof.Gen.ReferenceIdeal.Read
import proofs.«425159_j37976100831406_2_alg».proof.Proof.Row
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.Attn

open Idealize.ShloMosaic Idealize.ShloMosaic.ValueIdx Cert.ReferenceIdeal Cert.ReferenceIdeal.Read

namespace Ref

variable (x0 : (⟨S256x20, .i32⟩ : BufTy).Contents (Elt Ideal)) (x1 : (⟨S256x512x768, .f32⟩ : BufTy).Contents (Elt Ideal))
  (x2 : (⟨S2001x128, .f32⟩ : BufTy).Contents (Elt Ideal)) (x3 : (⟨S128x768, .f32⟩ : BufTy).Contents (Elt Ideal))

/-- The embedding row of batch `B`, skill `s`. -/
abbrev emb (B : Fin 256) (s : Fin 20) : Fin 128 → EReal := fun d => val_main_v6 (F := Ideal) x0 x2 (ix3 B s d)
/-- The projection matrix by coordinates. -/
abbrev proj : Fin 128 → Fin 768 → EReal := fun d h => x3 (ix2 d h)
/-- The description rows of batch `B` by coordinates. -/
abbrev desc (B : Fin 256) : Fin 512 → Fin 768 → EReal := fun l h => x1 (ix3 B l h)
/-- The scores of the row `(B, s)`. -/
abbrev sc (B : Fin 256) (s : Fin 20) : Fin 512 → EReal := scoreRow (qRow (emb x0 x2 B s) (proj x3)) (desc x1 B)

/-- The word of negative infinity is the bottom of the extended reals. -/
theorem ofBits_neg_inf : Ideal.ofBits .f32 0xFF800000#32 = (⊥ : EReal) := by simp [Ideal.ofBits, Ideal.ieee]

/-- The projection at an index is the query row. -/
theorem v7_at (B : Fin 256) (s : Fin 20) (h : Fin 768) :
    val_main_v7 (F := Ideal) x0 x2 x3 (ix3 B s h) = qRow (emb x0 x2 B s) (proj x3) h := by
  rw [val_main_v7_apply]
  unfold qRow
  refine Finset.sum_congr rfl fun k _ => ?_
  have el : lidx_main_v7 (ix3 B s h) k = ix3 B s k :=
    funext fun a => Fin.ext (by match a with | ⟨0, _⟩ => rfl | ⟨1, _⟩ => rfl | ⟨2, _⟩ => rfl)
  have er : ridx_main_v7 (ix3 B s h) k = ix2 k h :=
    funext fun a => Fin.ext (by match a with | ⟨0, _⟩ => rfl | ⟨1, _⟩ => rfl)
  rw [el, er]

/-- The batched score product at an index is the row's score. -/
theorem v8_at (B : Fin 256) (s : Fin 20) (l : Fin 512) :
    val_main_v8 (F := Ideal) x0 x1 x2 x3 (ix3 B s l) = sc x0 x1 x2 x3 B s l := by
  rw [val_main_v8_apply]
  show _ = ∑ h : Fin 768, qRow (emb x0 x2 B s) (proj x3) h * desc x1 B l h
  refine Finset.sum_congr rfl fun k _ => ?_
  have el : lidx_main_v8 (ix3 B s l) k = ix3 B s k :=
    funext fun a => Fin.ext (by match a with | ⟨0, _⟩ => rfl | ⟨1, _⟩ => rfl | ⟨2, _⟩ => rfl)
  have er : ridx_main_v8 (ix3 B s l) k = ix3 B l k :=
    funext fun a => Fin.ext (by match a with | ⟨0, _⟩ => rfl | ⟨1, _⟩ => rfl | ⟨2, _⟩ => rfl)
  rw [el, er, v7_at]

/-- The maximum over the tokens at an index is the fold of `max` from `⊥` over the row's scores. -/
theorem v9_at (B : Fin 256) (s : Fin 20) :
    val_main_v9 (F := Ideal) x0 x1 x2 x3 (ix2 B s) = rowMax (sc x0 x1 x2 x3 B s) := by
  have hR : S256x20x512.Reduces [2] S256x20 := by decide
  unfold val_main_v9
  rw [Host.reduce_eq_fold_single _ _ _ _ hR, val_main_cst_apply, Ideal.ofBits_def, ofBits_neg_inf]
  have hk : ∀ k : Fin 512, val_main_v8 (F := Ideal) x0 x1 x2 x3 (hR.lift (ix2 B s) k) = sc x0 x1 x2 x3 B s k := fun k => by
    have e : hR.lift (ix2 B s) k = ix3 B s k :=
      funext fun a => Fin.ext (by match a with | ⟨0, _⟩ => rfl | ⟨1, _⟩ => rfl | ⟨2, _⟩ => rfl)
    rw [e, v8_at]
  have hx : (val_main_v8 (F := Ideal) x0 x1 x2 x3 ∘ hR.lift (ix2 B s)) = sc x0 x1 x2 x3 B s := funext fun k => hk k
  rw [hx]
  rfl

/-- The maximum joined once more with `⊥` is the reference's shift. -/
theorem v11_at (B : Fin 256) (s : Fin 20) :
    val_main_v11 (F := Ideal) x0 x1 x2 x3 (ix2 B s) = refMax (sc x0 x1 x2 x3 B s) := by
  unfold refMax
  rw [val_main_v11_apply, val_main_v10_apply, val_main_cst_1_apply, v9_at, Ideal.ofBits_def, ofBits_neg_inf,
    Ideal.maximumf_def]

/-- The shift broadcast over the tokens. -/
theorem v13_at (B : Fin 256) (s : Fin 20) (l : Fin 512) :
    val_main_v13 (F := Ideal) x0 x1 x2 x3 (ix3 B s l) = refMax (sc x0 x1 x2 x3 B s) := by
  have e : idx_main_v12 (idx_main_v13 (ix3 B s l)) = ix2 B s :=
    funext fun a => Fin.ext (by match a with | ⟨0, _⟩ => rfl | ⟨1, _⟩ => rfl)
  rw [val_main_v13_apply, val_main_v12_apply, e, v11_at]

/-- The shifted exponential of a score. -/
theorem v15_at (B : Fin 256) (s : Fin 20) (l : Fin 512) :
    val_main_v15 (F := Ideal) x0 x1 x2 x3 (ix3 B s l)
      = Ideal.exp (sc x0 x1 x2 x3 B s l - refMax (sc x0 x1 x2 x3 B s)) := by
  rw [val_main_v15_apply, val_main_v14_apply, v8_at, v13_at, Ideal.subf_def, Ideal.hostUnary_exp_def]

/-- The sum of the shifted exponentials from `0` is the reference's denominator. -/
theorem v16_at (B : Fin 256) (s : Fin 20) :
    val_main_v16 (F := Ideal) x0 x1 x2 x3 (ix2 B s) = refZ (sc x0 x1 x2 x3 B s) := by
  unfold refZ
  rw [val_main_v16_apply, val_main_cst_2_apply, Ideal.ofBits_def, Ideal.ofBits_zero_f32]
  refine congrArg (0 + ·) (Finset.sum_congr rfl fun k _ => ?_)
  have e : idx_main_v16 (ix2 B s) k = ix3 B s k :=
    funext fun a => Fin.ext (by match a with | ⟨0, _⟩ => rfl | ⟨1, _⟩ => rfl | ⟨2, _⟩ => rfl)
  rw [e, v15_at]

/-- The denominator broadcast over the tokens. -/
theorem v18_at (B : Fin 256) (s : Fin 20) (l : Fin 512) :
    val_main_v18 (F := Ideal) x0 x1 x2 x3 (ix3 B s l) = refZ (sc x0 x1 x2 x3 B s) := by
  have e : idx_main_v17 (idx_main_v18 (ix3 B s l)) = ix2 B s :=
    funext fun a => Fin.ext (by match a with | ⟨0, _⟩ => rfl | ⟨1, _⟩ => rfl)
  rw [val_main_v18_apply, val_main_v17_apply, e, v16_at]

/-- The normalised weight of a token. -/
theorem v19_at (B : Fin 256) (s : Fin 20) (l : Fin 512) :
    val_main_v19 (F := Ideal) x0 x1 x2 x3 (ix3 B s l)
      = Ideal.div (Ideal.exp (sc x0 x1 x2 x3 B s l - refMax (sc x0 x1 x2 x3 B s))) (refZ (sc x0 x1 x2 x3 B s)) := by
  rw [val_main_v19_apply, v15_at, v18_at, Ideal.hostDivf_def]

/-- The batched product of the weights with the description rows is the reference's attention output. -/
theorem v20_at (B : Fin 256) (s : Fin 20) (h : Fin 768) :
    val_main_v20 (F := Ideal) x0 x1 x2 x3 (ix3 B s h) = refRow (sc x0 x1 x2 x3 B s) (desc x1 B) h := by
  rw [val_main_v20_apply]
  unfold refRow
  refine Finset.sum_congr rfl fun k _ => ?_
  have el : lidx_main_v20 (ix3 B s h) k = ix3 B s k :=
    funext fun a => Fin.ext (by match a with | ⟨0, _⟩ => rfl | ⟨1, _⟩ => rfl | ⟨2, _⟩ => rfl)
  have er : ridx_main_v20 (ix3 B s h) k = ix3 B k h :=
    funext fun a => Fin.ext (by match a with | ⟨0, _⟩ => rfl | ⟨1, _⟩ => rfl | ⟨2, _⟩ => rfl)
  rw [el, er, v19_at]

end Ref

/-- The reference's concatenated result at batch `B`, skill `s`, coordinate `j`: the embedding row below coordinate 128,
    the reference's attention output at `j - 128` from there on. -/
theorem ref_v21_apply (x0 : (⟨S256x20, .i32⟩ : BufTy).Contents (Elt Ideal)) (x1 : (⟨S256x512x768, .f32⟩ : BufTy).Contents (Elt Ideal))
    (x2 : (⟨S2001x128, .f32⟩ : BufTy).Contents (Elt Ideal)) (x3 : (⟨S128x768, .f32⟩ : BufTy).Contents (Elt Ideal))
    (B : Fin 256) (s : Fin 20) (j : Fin 896) :
    val_main_v21 (F := Ideal) x0 x1 x2 x3 (ix3 B s j)
      = outRow refRow (fun d => val_main_v6 (F := Ideal) x0 x2 (ix3 B s d)) (fun d h => x3 (ix2 d h))
          (fun l h => x1 (ix3 B l h)) j := by
  unfold outRow val_main_v21
  by_cases hj : j.val < 128
  · rw [dif_pos hj]
    exact concatenate_pair_apply_left (t := S256x20x896) (s₁ := S256x20x128) (s₂ := S256x20x768) 2 _ _ _ (ix3 B s j) rfl (ix3 B s (⟨j.val, hj⟩ : Fin 128) : S256x20x128.Idx)
      (fun b => by match b with | ⟨0, _⟩ => rfl | ⟨1, _⟩ => rfl | ⟨2, _⟩ => rfl)
  · rw [dif_neg hj]
    have hlt : j.val - 128 < 768 := by have := j.isLt; omega
    rw [concatenate_pair_apply_right (t := S256x20x896) (s₁ := S256x20x128) (s₂ := S256x20x768) 2 _ _ _ (ix3 B s j) rfl rfl (ix3 B s (⟨j.val - 128, hlt⟩ : Fin 768) : S256x20x768.Idx)
      (fun b hb => by match b with | ⟨0, _⟩ => rfl | ⟨1, _⟩ => rfl | ⟨2, _⟩ => exact (hb rfl).elim)
      (by show j.val - 128 + 128 = j.val; omega)]
    exact Ref.v20_at x0 x1 x2 x3 B s ⟨j.val - 128, hlt⟩

end Cert.Attn

end
-- ==== Proof.Take.lean ====
/-
  The embedding lookup as the kernel's program computes it, against the reference's.  Both wrap a negative index
  (x ↦ x + 2001 when x < 0), lay the wrapped indices out as a [256, 20, 1] column and gather rows of the table, the
  start index read signed and clamped.  The kernel's program then also computes, per position, the bit
  0 ≤ wrapped ∧ wrapped ≤ 2000, folds it by "and" over the unit axis, lays it along the 128 row entries and puts a
  NaN pattern where the bit is 0.  When every index lies in [-2001, 2001) every wrapped index lies in [0, 2000], every
  such bit is 1, and what is left is the gather alone, which is the reference's term.
-/
import proofs.«425159_j37976100831406_2_alg».proof.Proof.Gen.KernelIdeal.Frame
import proofs.«425159_j37976100831406_2_alg».proof.Proof.Gen.ReferenceIdeal.Read
import Idealize.ShloMosaic.Lib.StableHlo.Predicate
import Idealize.ShloMosaic.Lib.ValueIdx

noncomputable section

namespace Cert.Attn

open Idealize.ShloMosaic Idealize.ShloMosaic.TcCoe Idealize.SL.Sem Idealize.ShloMosaic.StableHlo
open Cert.KernelIdeal

/-! ## One index word -/

/-- The wrapped index: x + 2001 for a negative x, else x. -/
def wrapW (x : BitVec 32) : BitVec 32 := Scalar.select (IntOp.cmpi .slt x 0#32) (IntOp.addi x 2001#32) x

/-- For -2001 ≤ x < 2001 (signed) the wrapped index lies in [0, 2000]: a negative x has x + 2001 in [0, 2000] and the
    sum does not overflow; a non-negative x is below 2001 already. -/
theorem wrap_in_range (x : BitVec 32)
    (h1 : IntOp.cmpi .sge x 4294965295#32 = 1#1) (h2 : IntOp.cmpi .slt x 2001#32 = 1#1) :
    IntOp.cmpi .sge (wrapW x) 0#32 = 1#1 ∧ IntOp.cmpi .sle (wrapW x) 2000#32 = 1#1 := by
  unfold wrapW
  have e1 : (4294965295#32 : BitVec 32).toInt = -2001 := by decide
  have e2 : (2001#32 : BitVec 32).toInt = 2001 := by decide
  have e3 : (2000#32 : BitVec 32).toInt = 2000 := by decide
  have e0 : (0#32 : BitVec 32).toInt = 0 := by decide
  simp only [IntOp.cmpi, StableHlo.Predicate.ofBool_eq_one_iff, BitVec.slt, BitVec.sle, decide_eq_true_eq, e1, e2, e0] at h1 h2
  by_cases hx : x.toInt < 0
  · have hc : IntOp.cmpi .slt x 0#32 = 1#1 := by
      simp only [IntOp.cmpi, StableHlo.Predicate.ofBool_eq_one_iff, BitVec.slt, decide_eq_true_eq, e0]; exact hx
    rw [hc, ValueIdx.select_one]
    have ha : (IntOp.addi x 2001#32).toInt = x.toInt + 2001 := by
      show (x + 2001#32).toInt = _
      rw [BitVec.toInt_add, e2]
      exact Int.bmod_eq_of_le (by omega) (by omega)
    simp only [IntOp.cmpi, StableHlo.Predicate.ofBool_eq_one_iff, BitVec.slt, BitVec.sle, decide_eq_true_eq, e3, e0, ha]
    omega
  · have hc : IntOp.cmpi .slt x 0#32 ≠ 1#1 := by
      simp only [IntOp.cmpi, ne_eq, StableHlo.Predicate.ofBool_eq_one_iff, BitVec.slt, decide_eq_true_eq, e0]; exact hx
    have hs : Scalar.select (IntOp.cmpi .slt x 0#32) (IntOp.addi x 2001#32) x = x := if_neg hc
    rw [hs]
    simp only [IntOp.cmpi, StableHlo.Predicate.ofBool_eq_one_iff, BitVec.slt, BitVec.sle, decide_eq_true_eq, e3, e0]
    omega

/-! ## A fold by "and" over bits that are all 1 -/

/-- A left fold by "and" from 1 over bits that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l (fun n hn => h n (List.mem_cons_of_mem a hn))

/-- A reduction by "and", from an initial array of 1s, of an array of 1s is 1 at every result index. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  unfold Host.reduce
  rw [hi]
  exact foldl_andi_one (fun n => x (s.rowMajor.symm n)) _ (fun n _ => hx _)

/-! ## The kernel's program's terms -/

/-- The wrapped indices as a [256, 20, 1] column. -/
def wrapK (a0 : IVec S256x20 32) : IVec S256x20x1 32 :=
  broadcastInDim S256x20x1 ![0, 1] Gen.bcast_S256x20_S256x20x1_0_1
    (select (cmpi .slt a0 (broadcastInDim S256x20 ![] Gen.bcast_S_S256x20 (constantI S_ 32 0#32)))
      (addi a0 (broadcastInDim S256x20 ![] Gen.bcast_S_S256x20 (constantI S_ 32 2001#32))) a0)

/-- Per position of the column, the bit 0 ≤ wrapped ∧ wrapped ≤ 2000. -/
def inRangeK (a0 : IVec S256x20 32) : IVec S256x20x1 1 :=
  andi (cmpi .sge (wrapK a0) (broadcastInDim S256x20x1 ![] Gen.bcast_S_S256x20x1 (constantI S_ 32 0#32)))
    (cmpi .sle (wrapK a0) (broadcastInDim S256x20x1 ![0, 1, 2] Gen.bcast_S1x1x1_S256x20x1_0_1_2
      (broadcastInDim S1x1x1 ![2] Gen.bcast_S1_S1x1x1_2 (constantI S1 32 2000#32))))

/-- That bit folded over the unit axis and laid along the 128 entries of a row. -/
def maskK (a0 : IVec S256x20 32) : IVec S256x20x128 1 :=
  broadcastInDim S256x20x128 ![0, 1] Gen.bcast_S256x20_S256x20x128_0_1
    (Host.reduce IntOp.andi (inRangeK a0) (constantI S_ 1 1#1) Gen.reducesTo_S256x20x1_S256x20_d2 Gen.h_S_)

/-- The gathered rows, a NaN pattern where the mask is 0. -/
def takeK (a0 : IVec S256x20 32) (a2 : FVec Ideal S2001x128 .f32) : FVec Ideal S256x20x128 .f32 :=
  select (maskK a0) (Host.gather gather_S2001x128_S256x20x1_S256x20x128_2_0_n_n_0_2_1128 a2 (wrapK a0))
    (broadcastInDim S256x20x128 ![] Gen.bcast_S_S256x20x128 (constant (F := Ideal) S_ .f32 0x7FC00000#32))

/-- Every position of the column holds the wrapped index of some input position. -/
theorem wrapK_apply (a0 : IVec S256x20 32) (k : S256x20x1.Idx) : ∃ i : S256x20.Idx, wrapK a0 k = wrapW (a0 i) :=
  ⟨_, rfl⟩

/-- With every index in [-2001, 2001) the range bit is 1 at every position. -/
theorem inRangeK_one (a0 : IVec S256x20 32)
    (hr : ∀ i, IntOp.cmpi .sge (a0 i) 4294965295#32 = 1#1 ∧ IntOp.cmpi .slt (a0 i) 2001#32 = 1#1) (k : S256x20x1.Idx) :
    inRangeK a0 k = 1#1 := by
  obtain ⟨i, hi⟩ := wrapK_apply a0 k
  obtain ⟨h1, h2⟩ := wrap_in_range (a0 i) (hr i).1 (hr i).2
  show IntOp.andi (IntOp.cmpi .sge (wrapK a0 k) 0#32) (IntOp.cmpi .sle (wrapK a0 k) 2000#32) = 1#1
  rw [hi, h1, h2]
  rfl

/-- So the mask is 1 everywhere. -/
theorem maskK_one (a0 : IVec S256x20 32)
    (hr : ∀ i, IntOp.cmpi .sge (a0 i) 4294965295#32 = 1#1 ∧ IntOp.cmpi .slt (a0 i) 2001#32 = 1#1) (j : S256x20x128.Idx) :
    maskK a0 j = 1#1 := by
  unfold maskK broadcastInDim
  exact reduce_andi_one _ _ _ _ (inRangeK_one a0 hr) (fun _ => rfl) _

/-- And the kernel's lookup is the gather alone, which is the reference's term. -/
theorem takeK_eq (a0 : IVec S256x20 32) (a2 : FVec Ideal S2001x128 .f32)
    (hr : ∀ i, IntOp.cmpi .sge (a0 i) 4294965295#32 = 1#1 ∧ IntOp.cmpi .slt (a0 i) 2001#32 = 1#1) :
    takeK a0 a2 = Cert.ReferenceIdeal.Read.val_main_v6 (F := Ideal) a0 a2 := by
  funext j
  show Scalar.select (maskK a0 j) (Host.gather gather_S2001x128_S256x20x1_S256x20x128_2_0_n_n_0_2_1128 a2 (wrapK a0) j) _ = _
  rw [maskK_one a0 hr j, ValueIdx.select_one]
  rfl

/-! ## What the kernel region finds in its first operand -/

/-- The buffer the lookup writes holds, when the region is entered, the reference's gathered rows. -/
theorem take_eq (m : (ℓ : Loc nD τ sig) → Buf (Elt Ideal) ℓ) (c : Dev nD)
    (hr : ∀ i, IntOp.cmpi .sge (m ((c : Thread nD τ).loc main_arg0) i) 4294965295#32 = 1#1
      ∧ IntOp.cmpi .slt (m ((c : Thread nD τ).loc main_arg0) i) 2001#32 = 1#1) :
    (Gen.V m c main_v0 : S256x20x128.Idx → EReal)
      = Cert.ReferenceIdeal.Read.val_main_v6 (F := Ideal)
          (m ((c : Thread nD τ).loc main_arg0)) (m ((c : Thread nD τ).loc main_arg2)) := by
  rw [← takeK_eq _ _ hr]
  show StableHlo.after Gen.hostOps0 (fun b => m (c, b)) (Proc.devRef .tc main_v0) = _
  after_results_simp
  rfl

/-! ## The lookup of a table of reals -/

/-- The gather reads one entry of the table at each result position, so over a table of reals it is real-valued. -/
theorem val_main_v6_real (x2 : FVec Ideal Cert.ReferenceIdeal.S2001x128 .f32) (hx : ∀ i, ∃ r : ℝ, x2 i = (r : EReal))
    (x0 : IVec Cert.ReferenceIdeal.S256x20 32) (i : Cert.ReferenceIdeal.S256x20x128.Idx) :
    ∃ r : ℝ, Cert.ReferenceIdeal.Read.val_main_v6 (F := Ideal) x0 x2 i = (r : EReal) := by
  unfold Cert.ReferenceIdeal.Read.val_main_v6 Host.gather
  exact hx _

end Cert.Attn

end
-- ==== Proof.Bridge.lean ====
/-
  The two output arrays are one function.  Row (B, s) of the reference's [256, 20, 896] array is the embedding row
  followed by the softmax-weighted sum of batch element B's description rows; row (B, s) of the kernel's array is the
  embedding row followed by the online-softmax quotient over the same rows in four chunks.  When the embedding table,
  the descriptions and the projection hold real numbers the two rows agree, coordinate by coordinate.
-/
import proofs.«425159_j37976100831406_2_alg».proof.Proof.KerArray
import proofs.«425159_j37976100831406_2_alg».proof.Proof.Softmax
import proofs.«425159_j37976100831406_2_alg».proof.Proof.RefRow
import proofs.«425159_j37976100831406_2_alg».proof.Proof.Take

noncomputable section

namespace Cert.Attn

open Idealize.ShloMosaic Idealize.ShloMosaic.ValueIdx
open Cert.ReferenceIdeal Cert.ReferenceIdeal.Read

/-- On real-valued arrays the reference's concatenated array is the kernel's array function of the gathered embedding
    rows, the descriptions and the projection. -/
theorem v21_eq_arrFn (x0 : (⟨S256x20, .i32⟩ : BufTy).Contents (Elt Ideal)) (x1 : (⟨S256x512x768, .f32⟩ : BufTy).Contents (Elt Ideal))
    (x2 : (⟨S2001x128, .f32⟩ : BufTy).Contents (Elt Ideal)) (x3 : (⟨S128x768, .f32⟩ : BufTy).Contents (Elt Ideal))
    (h1 : ∀ i, ∃ r : ℝ, x1 i = (r : EReal)) (h2 : ∀ i, ∃ r : ℝ, x2 i = (r : EReal)) (h3 : ∀ i, ∃ r : ℝ, x3 i = (r : EReal)) :
    val_main_v21 (F := Ideal) x0 x1 x2 x3 = Ker.arrFn (val_main_v6 (F := Ideal) x0 x2) x1 x3 := by
  funext i
  obtain ⟨B, s, j, rfl⟩ : ∃ (B : Fin 256) (s : Fin 20) (j : Fin 896), i = ix3 B s j := ⟨i 0, i 1, i 2, eq_ix3 i⟩
  rw [ref_v21_apply]
  show outRow refRow (fun d => val_main_v6 (F := Ideal) x0 x2 (ix3 B s d)) (fun d h => x3 (ix2 d h)) (fun l h => x1 (ix3 B l h)) j
    = outRow kerRow (fun d => val_main_v6 (F := Ideal) x0 x2 (ix3 B s d)) (fun d h => x3 (ix2 d h)) (fun l h => x1 (ix3 B l h)) j
  choose e he using fun d : Fin 128 => val_main_v6_real x2 h2 x0 (ix3 B s d)
  choose W hW using fun (d : Fin 128) (h : Fin 768) => h3 (ix2 d h)
  choose D hD using fun (l : Fin 512) (h : Fin 768) => h1 (ix3 B l h)
  have hE : (fun d => val_main_v6 (F := Ideal) x0 x2 (ix3 B s d)) = fun d => (e d : EReal) := funext he
  have hW' : (fun (d : Fin 128) (h : Fin 768) => x3 (ix2 d h)) = fun d h => (W d h : EReal) := funext fun d => funext fun h => hW d h
  have hD' : (fun (l : Fin 512) (h : Fin 768) => x1 (ix3 B l h)) = fun l h => (D l h : EReal) := funext fun l => funext fun h => hD l h
  rw [hE, hW', hD']
  exact (outRow_ker_eq_ref e W D j).symm

end Cert.Attn

end
-- ==== Proof.lean ====
/-
  The certificate of the attention kernel against its reference, over the extended reals.

  The kernel looks the skill embeddings up on the host (a gather with out-of-range indices filled), then in ONE
  kernel launch over 32 batch tiles projects them to queries, scores them against the tile's 512 description rows and
  forms the softmax-weighted sum of those rows by an ONLINE softmax over four chunks of 128 rows (running maximum,
  running denominator, running numerator, each rescaled when the maximum moves), and stores the embedding rows followed
  by numerator / denominator; a reshape follows.  The reference gathers, projects, scores, applies the plain softmax
  (subtract the row maximum, exponentiate, divide by the sum) and contracts with the descriptions, concatenates and
  reshapes.

  On indices in range of the embedding table (the added evident-domain conjunct -2001 ≤ skills < 2001: both programs
  wrap a negative index once, the reference then clamps where the kernel fills) the two gathers are one array.  On
  finite inputs every score is a real number, so is every running maximum, and for real shifts m, m' one has
  exp (m - m') * ∑ exp (s - m) x = ∑ exp (s - m') x: after the four chunks numerator and denominator are the sums over
  all 512 rows at the last shift, and their quotient does not depend on the shift.  That is the reference's row.

  The frames of the two kernel programs are the generated frame certificates; the reference's frame is its generated
  run with the result dropped; no idealization rule fired, so the preservation claim is trivial.
-/
import proofs.«425159_j37976100831406_2_alg».proof.Defs
import proofs.«425159_j37976100831406_2_alg».proof.Proof.Gen.Kernel
import proofs.«425159_j37976100831406_2_alg».proof.Proof.Gen.Kernel.Skeleton
import proofs.«425159_j37976100831406_2_alg».proof.Proof.Gen.Kernel.Launch
import proofs.«425159_j37976100831406_2_alg».proof.Proof.Gen.Kernel.Points
import proofs.«425159_j37976100831406_2_alg».proof.Proof.Gen.Kernel.Frame
import proofs.«425159_j37976100831406_2_alg».proof.Proof.Gen.KernelIdeal
import proofs.«425159_j37976100831406_2_alg».proof.Proof.Gen.KernelIdeal.Skeleton
import proofs.«425159_j37976100831406_2_alg».proof.Proof.Gen.KernelIdeal.Launch
import proofs.«425159_j37976100831406_2_alg».proof.Proof.Gen.KernelIdeal.Points
import proofs.«425159_j37976100831406_2_alg».proof.Proof.Gen.KernelIdeal.Frame
import proofs.«425159_j37976100831406_2_alg».proof.Proof.Gen.ReferenceIdeal
import proofs.«425159_j37976100831406_2_alg».proof.Proof.Gen.ReferenceIdeal.Run
import proofs.«425159_j37976100831406_2_alg».proof.Proof.Gen.ReferenceIdeal.Read
import proofs.«425159_j37976100831406_2_alg».proof.Proof.Gen.Pre_finite_inputs
import proofs.«425159_j37976100831406_2_alg».proof.Proof.PreFacts
import proofs.«425159_j37976100831406_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end at the reshape of one [256, 20, 896] array: the kernel's array function of the gathered
    embedding rows (the reference's gather, on indices in range), the descriptions and the projection, which on
    finite inputs is the reference's concatenated array. -/
theorem algebraic : Cert.algebraic_KernelIdeal_ReferenceIdeal := by
  intro m ρ m' ρ' hpre hagree
  refine ⟨_, Cert.Attn.Ker.run m ρ, ?_⟩
  refine (θ_run Cert.ReferenceIdeal.defs _ _).mono (fun _ h c => ⟨(h c).1.trans ?_, (h c).2⟩)
    (Cert.ReferenceIdeal.Value.run (F := Ideal) m' ρ')
  obtain ⟨h1, h2, h3, hr⟩ := Cert.Attn.pre_facts _ _ _ _ (hpre c)
  rw [Cert.ReferenceIdeal.Read.val_main_v22_eq, (hagree c).1, (hagree c).2.1, (hagree c).2.2.1, (hagree c).2.2.2,
    Cert.Attn.take_eq m c hr]
  unfold Cert.ReferenceIdeal.Read.val_main_v22
  rw [Cert.Attn.v21_eq_arrFn _ _ _ _ h1 h2 h3]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
